-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_arg1 : IVec S2x800000 32) (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : IVec S1x800000 32 := (extractStridedSlice S1x800000 ![0, 0] · slices_S2x800000_S1x800000_0_0) main_arg1
  let main_v75 : IVec S800000 32 := shapeCast S800000 main_v74 shapeCasts_S1x800000_S800000
  let main_c_28 : IVec S_ 32 := constantI S_ 32 0#32
  let main_v76 : IVec S800000 32 := broadcastInDim S800000 ![] bcast_S_S800000 main_c_28
  let main_v77 : IVec S800000 1 := cmpi .sge main_v75 main_v76
  let main_v78 : IVec S1x800000 32 := (extractStridedSlice S1x800000 ![0, 0] · slices_S2x800000_S1x800000_0_0) main_arg1
  let main_v79 : IVec S800000 32 := shapeCast S800000 main_v78 shapeCasts_S1x800000_S800000
  let main_c_29 : IVec S_ 32 := constantI S_ 32 50000#32
  let main_v80 : IVec S800000 32 := broadcastInDim S800000 ![] bcast_S_S800000 main_c_29
  let main_v81 : IVec S800000 1 := cmpi .slt main_v79 main_v80
  let main_v82 : IVec S800000 1 := andi main_v77 main_v81
  let main_c_30 : IVec S_ 1 := constantI S_ 1 1#1
  let main_v83 : IVec S_ 1 := (fun x v => Host.reduce IntOp.andi x v reducesTo_S800000_S_d0 h_S_) main_v82 main_c_30
  let main_v84 : IVec S_ 1 := andi main_v73 main_v83
  main_v84

def fn_part3 {F : FTy → Type} [FloatOps F] (main_arg1 : IVec S2x800000 32) (main_arg13 : FVec F S64x64 .f32) (main_arg14 : FVec F S64 .f32) (main_arg15 : FVec F S64x1 .f32) (main_arg16 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg15
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg1 main_arg16 main_v63 main_v67

def fn_part2 {F : FTy → Type} [FloatOps F] (main_arg1 : IVec S2x800000 32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x1 .f32) (main_arg16 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg1 main_arg13 main_arg14 main_arg15 main_arg16 main_v48 main_v49 main_v50

def fn_part1 {F : FTy → Type} [FloatOps F] (main_arg1 : IVec S2x800000 32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x1 .f32) (main_arg16 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg9 main_arg10 main_arg11 main_arg12 main_arg13 main_arg14 main_arg15 main_arg16 main_v33

def fn {F : FTy → Type} [FloatOps F] (main_arg0 : FVec F S50000x64 .f32) (main_arg1 : IVec S2x800000 32) (main_arg2 : IVec S50000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x1 .f32) (main_arg16 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg6 main_arg7 main_arg8 main_arg9 main_arg10 main_arg11 main_arg12 main_arg13 main_arg14 main_arg15 main_arg16 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x1 : Shape := ⟨2, ![1, 1]⟩
abbrev S800000x64 : Shape := ⟨2, ![800000, 64]⟩
abbrev S1x64 : Shape := ⟨2, ![1, 64]⟩
abbrev S5000x64 : Shape := ⟨2, ![5000, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩

abbrev nBuf : Space → Nat
  | .hbm => 129
  | .vmem => 34
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x1, .f32⟩
  | 16 => ⟨S1, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S1, .i32⟩
  | 30 => ⟨S_, .i32⟩
  | 31 => ⟨S800000x1, .i32⟩
  | 32 => ⟨S800000x1, .i1⟩
  | 33 => ⟨S1x1, .i32⟩
  | 34 => ⟨S800000x1, .i32⟩
  | 35 => ⟨S800000x1, .i1⟩
  | 36 => ⟨S800000x1, .i1⟩
  | 37 => ⟨S_, .i1⟩
  | 38 => ⟨S800000, .i1⟩
  | 39 => ⟨S800000x64, .f32⟩
  | 40 => ⟨S800000x64, .i1⟩
  | 41 => ⟨S_, .f32⟩
  | 42 => ⟨S800000x64, .f32⟩
  | 43 => ⟨S800000x64, .f32⟩
  | 44 => ⟨S_, .f32⟩
  | 45 => ⟨S50000x64, .f32⟩
  | 46 => ⟨S800000x1, .i32⟩
  | 47 => ⟨S50000x64, .f32⟩
  | 48 => ⟨S1x64, .f32⟩
  | 49 => ⟨S1x64, .f32⟩
  | 50 => ⟨S50000x64, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S1, .i32⟩
  | 60 => ⟨S_, .i32⟩
  | 61 => ⟨S800000x1, .i32⟩
  | 62 => ⟨S800000x1, .i1⟩
  | 63 => ⟨S1x1, .i32⟩
  | 64 => ⟨S800000x1, .i32⟩
  | 65 => ⟨S800000x1, .i1⟩
  | 66 => ⟨S800000x1, .i1⟩
  | 67 => ⟨S_, .i1⟩
  | 68 => ⟨S800000, .i1⟩
  | 69 => ⟨S800000x64, .f32⟩
  | 70 => ⟨S800000x64, .i1⟩
  | 71 => ⟨S_, .f32⟩
  | 72 => ⟨S800000x64, .f32⟩
  | 73 => ⟨S800000x64, .f32⟩
  | 74 => ⟨S_, .f32⟩
  | 75 => ⟨S50000x64, .f32⟩
  | 76 => ⟨S800000x1, .i32⟩
  | 77 => ⟨S50000x64, .f32⟩
  | 78 => ⟨S1x64, .f32⟩
  | 79 => ⟨S1x64, .f32⟩
  | 80 => ⟨S50000x64, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S1, .i32⟩
  | 90 => ⟨S_, .i32⟩
  | 91 => ⟨S800000x1, .i32⟩
  | 92 => ⟨S800000x1, .i1⟩
  | 93 => ⟨S1x1, .i32⟩
  | 94 => ⟨S800000x1, .i32⟩
  | 95 => ⟨S800000x1, .i1⟩
  | 96 => ⟨S800000x1, .i1⟩
  | 97 => ⟨S_, .i1⟩
  | 98 => ⟨S800000, .i1⟩
  | 99 => ⟨S800000x64, .f32⟩
  | 100 => ⟨S800000x64, .i1⟩
  | 101 => ⟨S_, .f32⟩
  | 102 => ⟨S800000x64, .f32⟩
  | 103 => ⟨S800000x64, .f32⟩
  | 104 => ⟨S_, .f32⟩
  | 105 => ⟨S50000x64, .f32⟩
  | 106 => ⟨S800000x1, .i32⟩
  | 107 => ⟨S50000x64, .f32⟩
  | 108 => ⟨S1x64, .f32⟩
  | 109 => ⟨S1x64, .f32⟩
  | 110 => ⟨S50000x64, .f32⟩
  | 111 => ⟨S_, .f32⟩
  | 112 => ⟨S512x64, .f32⟩
  | 113 => ⟨S50000x1, .i32⟩
  | 114 => ⟨S512x64, .f32⟩
  | 115 => ⟨S_, .f32⟩
  | 116 => ⟨S50000, .f32⟩
  | 117 => ⟨S_, .f32⟩
  | 118 => ⟨S512, .f32⟩
  | 119 => ⟨S50000x1, .i32⟩
  | 120 => ⟨S512, .f32⟩
  | 121 => ⟨S_, .f32⟩
  | 122 => ⟨S512, .f32⟩
  | 123 => ⟨S512, .f32⟩
  | 124 => ⟨S512x1, .f32⟩
  | 125 => ⟨S512x64, .f32⟩
  | 126 => ⟨S512x64, .f32⟩
  | 127 => ⟨S1x1, .f32⟩
  | _ => ⟨S50000x64, .f32⟩

abbrev hbmTy0_1 (i : Nat) : BufTy := match i % 128 with
  | 0 => ⟨S512x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S512x64, .f32⟩
  | .local _ .vmem, ⟨31, _⟩ => ⟨S64x1, .f32⟩
  | .local _ .vmem, ⟨32, _⟩ => ⟨S1x1, .f32⟩
  | .local _ .vmem, ⟨33, _⟩ => ⟨S512x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v4 : Ref sig .tc := ⟨.hbm, 43, rfl⟩
abbrev main_cst : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v11 : Ref sig .tc := ⟨.hbm, 73, rfl⟩
abbrev main_cst_0 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_v17 : Ref sig .tc := ⟨.hbm, 80, rfl⟩
abbrev main_call2_c : Ref sig .tc := ⟨.hbm, 81, rfl⟩
abbrev main_call2_v0 : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_c_1 : Ref sig .tc := ⟨.hbm, 89, rfl⟩
abbrev main_call2_c_2 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_3 : Ref sig .tc := ⟨.hbm, 97, rfl⟩
abbrev main_call2_v12 : Ref sig .tc := ⟨.hbm, 98, rfl⟩
abbrev main_call2_v13 : Ref sig .tc := ⟨.hbm, 99, rfl⟩
abbrev main_call2_v14 : Ref sig .tc := ⟨.hbm, 100, rfl⟩
abbrev main_call2_cst : Ref sig .tc := ⟨.hbm, 101, rfl⟩
abbrev main_call2_v15 : Ref sig .tc := ⟨.hbm, 102, rfl⟩
abbrev main_v18 : Ref sig .tc := ⟨.hbm, 103, rfl⟩
abbrev main_cst_1 : Ref sig .tc := ⟨.hbm, 104, rfl⟩
abbrev main_v19 : Ref sig .tc := ⟨.hbm, 105, rfl⟩
abbrev main_v20 : Ref sig .tc := ⟨.hbm, 106, rfl⟩
abbrev main_v21 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_cst_2 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_cst_3 : Ref sig .tc := ⟨.hbm, 115, rfl⟩
abbrev main_v28 : Ref sig .tc := ⟨.hbm, 116, rfl⟩
abbrev main_cst_4 : Ref sig .tc := ⟨.hbm, 117, rfl⟩
abbrev main_v29 : Ref sig .tc := ⟨.hbm, 118, rfl⟩
abbrev main_v30 : Ref sig .tc := ⟨.hbm, 119, rfl⟩
abbrev main_v31 : Ref sig .tc := ⟨.hbm, 120, rfl⟩
abbrev main_cst_5 : Ref sig .tc := ⟨.hbm, 121, rfl⟩
abbrev main_v32 : Ref sig .tc := ⟨.hbm, 122, rfl⟩
abbrev main_v33 : Ref sig .tc := ⟨.hbm, 123, rfl⟩
abbrev main_v34 : Ref sig .tc := ⟨.hbm, 124, rfl⟩
abbrev main_v35 : Ref sig .tc := ⟨.hbm, 125, rfl⟩
abbrev main_v36 : Ref sig .tc := ⟨.hbm, 126, rfl⟩
abbrev main_v37 : Ref sig .tc := ⟨.hbm, 127, rfl⟩
abbrev main_v38 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem1_0 : DmaSem sig := 31
abbrev cc3_sem2_0 : DmaSem sig := 32
abbrev cc3_sem3_0 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S512x64 : S_.BroadcastsInDim S512x64 (![] : Fin 0 → Fin S512x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S1_S1x1 : S1.ShapeCasts S1x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x64.size a ≤ S512x64.size a
  hwx3_0 : ∀ i : grid3.Coords, EltTy.bits .f32 = 32 ∨ (Rect.block (s := S512x64) S512x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x1.size a ≤ S64x1.size a
  hwx3_1 : ∀ i : grid3.Coords, EltTy.bits .f32 = 32 ∨ (Rect.block (s := S64x1) S64x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x1.size a ≤ S512x1.size a
  hwx3_3 : ∀ i : grid3.Coords, EltTy.bits .f32 = 32 ∨ (Rect.block (s := S512x1) S512x1.size (cc3_transform_3 i) (hinb3_3 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_v7) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v21) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v23) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v24) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v36) S512x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg15) S64x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v37) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v38) S512x1.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩
abbrev S1x1 : Shape := ⟨2, ![1, 1]⟩

abbrev nBuf : Space → Nat
  | .hbm => 125
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x1, .f32⟩
  | .hbm, ⟨16, _⟩ => ⟨S1, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S_, .f32⟩
  | .hbm, ⟨31, _⟩ => ⟨S50000x64, .f32⟩
  | .hbm, ⟨32, _⟩ => ⟨S800000x1, .i32⟩
  | .hbm, ⟨33, _⟩ => ⟨S50000x64, .f32⟩
  | .hbm, ⟨34, _⟩ => ⟨S50000x64, .f32⟩
  | .hbm, ⟨35, _⟩ => ⟨S50000x64, .f32⟩
  | .hbm, ⟨36, _⟩ => ⟨S1x64, .f32⟩
  | .hbm, ⟨37, _⟩ => ⟨S50000x64, .f32⟩
  | .hbm, ⟨38, _⟩ => ⟨S50000x64, .f32⟩
  | .hbm, ⟨39, _⟩ => ⟨S_, .f32⟩
  | .hbm, ⟨40, _⟩ => ⟨S50000x64, .f32⟩
  | .hbm, ⟨41, _⟩ => ⟨S50000x64, .f32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x64, .f32⟩
  | .hbm, ⟨46, _⟩ => ⟨S_, .f32⟩
  | .hbm, ⟨47, _⟩ => ⟨S50000x64, .f32⟩
  | .hbm, ⟨48, _⟩ => ⟨S50000x64, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x64, .f32⟩
  | .hbm, ⟨58, _⟩ => ⟨S_, .f32⟩
  | .hbm, ⟨59, _⟩ => ⟨S50000x64, .f32⟩
  | .hbm, ⟨60, _⟩ => ⟨S800000x1, .i32⟩
  | .hbm, ⟨61, _⟩ => ⟨S50000x64, .f32⟩
  | .hbm, ⟨62, _⟩ => ⟨S50000x64, .f32⟩
  | .hbm, ⟨63, _⟩ => ⟨S50000x64, .f32⟩
  | .hbm, ⟨64, _⟩ => ⟨S1x64, .f32⟩
  | .hbm, ⟨65, _⟩ => ⟨S50000x64, .f32⟩
  | .hbm, ⟨66, _⟩ => ⟨S50000x64, .f32⟩
  | .hbm, ⟨67, _⟩ => ⟨S_, .f32⟩
  | .hbm, ⟨68, _⟩ => ⟨S50000x64, .f32⟩
  | .hbm, ⟨69, _⟩ => ⟨S50000x64, .f32⟩
  | .hbm, ⟨70, _⟩ => ⟨S50000x64, .f32⟩
  | .hbm, ⟨71, _⟩ => ⟨S1x64, .f32⟩
  | .hbm, ⟨72, _⟩ => ⟨S50000x64, .f32⟩
  | .hbm, ⟨73, _⟩ => ⟨S50000x64, .f32⟩
  | .hbm, ⟨74, _⟩ => ⟨S_, .f32⟩
  | .hbm, ⟨75, _⟩ => ⟨S50000x64, .f32⟩
  | .hbm, ⟨76, _⟩ => ⟨S50000x64, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x64, .f32⟩
  | .hbm, ⟨86, _⟩ => ⟨S_, .f32⟩
  | .hbm, ⟨87, _⟩ => ⟨S50000x64, .f32⟩
  | .hbm, ⟨88, _⟩ => ⟨S800000x1, .i32⟩
  | .hbm, ⟨89, _⟩ => ⟨S50000x64, .f32⟩
  | .hbm, ⟨90, _⟩ => ⟨S50000x64, .f32⟩
  | .hbm, ⟨91, _⟩ => ⟨S50000x64, .f32⟩
  | .hbm, ⟨92, _⟩ => ⟨S1x64, .f32⟩
  | .hbm, ⟨93, _⟩ => ⟨S50000x64, .f32⟩
  | .hbm, ⟨94, _⟩ => ⟨S50000x64, .f32⟩
  | .hbm, ⟨95, _⟩ => ⟨S_, .f32⟩
  | .hbm, ⟨96, _⟩ => ⟨S50000x64, .f32⟩
  | .hbm, ⟨97, _⟩ => ⟨S50000x64, .f32⟩
  | .hbm, ⟨98, _⟩ => ⟨S50000x64, .f32⟩
  | .hbm, ⟨99, _⟩ => ⟨S1x64, .f32⟩
  | .hbm, ⟨100, _⟩ => ⟨S50000x64, .f32⟩
  | .hbm, ⟨101, _⟩ => ⟨S50000x64, .f32⟩
  | .hbm, ⟨102, _⟩ => ⟨S_, .f32⟩
  | .hbm, ⟨103, _⟩ => ⟨S50000x64, .f32⟩
  | .hbm, ⟨104, _⟩ => ⟨S50000x64, .f32⟩
  | .hbm, ⟨105, _⟩ => ⟨S_, .f32⟩
  | .hbm, ⟨106, _⟩ => ⟨S512x64, .f32⟩
  | .hbm, ⟨107, _⟩ => ⟨S50000x1, .i32⟩
  | .hbm, ⟨108, _⟩ => ⟨S512x64, .f32⟩
  | .hbm, ⟨109, _⟩ => ⟨S_, .f32⟩
  | .hbm, ⟨110, _⟩ => ⟨S50000, .f32⟩
  | .hbm, ⟨111, _⟩ => ⟨S_, .f32⟩
  | .hbm, ⟨112, _⟩ => ⟨S512, .f32⟩
  | .hbm, ⟨113, _⟩ => ⟨S50000x1, .i32⟩
  | .hbm, ⟨114, _⟩ => ⟨S512, .f32⟩
  | .hbm, ⟨115, _⟩ => ⟨S_, .f32⟩
  | .hbm, ⟨116, _⟩ => ⟨S512, .f32⟩
  | .hbm, ⟨117, _⟩ => ⟨S512, .f32⟩
  | .hbm, ⟨118, _⟩ => ⟨S512x1, .f32⟩
  | .hbm, ⟨119, _⟩ => ⟨S512x64, .f32⟩
  | .hbm, ⟨120, _⟩ => ⟨S512x64, .f32⟩
  | .hbm, ⟨121, _⟩ => ⟨S512x1, .f32⟩
  | .hbm, ⟨122, _⟩ => ⟨S1x1, .f32⟩
  | .hbm, ⟨123, _⟩ => ⟨S512x1, .f32⟩
  | .hbm, ⟨124, _⟩ => ⟨S512x1, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_cst : Ref sig .tc := ⟨.hbm, 46, rfl⟩
abbrev main_call1_v0 : Ref sig .tc := ⟨.hbm, 47, rfl⟩
abbrev main_v24 : Ref sig .tc := ⟨.hbm, 48, rfl⟩
abbrev main_c_1 : Ref sig .tc := ⟨.hbm, 49, rfl⟩
abbrev main_v25 : Ref sig .tc := ⟨.hbm, 50, rfl⟩
abbrev main_v26 : Ref sig .tc := ⟨.hbm, 51, rfl⟩
abbrev main_c_2 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_3 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_call2_cst : Ref sig .tc := ⟨.hbm, 67, rfl⟩
abbrev main_call2_v0 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_call3_cst : Ref sig .tc := ⟨.hbm, 74, rfl⟩
abbrev main_call3_v0 : Ref sig .tc := ⟨.hbm, 75, rfl⟩
abbrev main_v45 : Ref sig .tc := ⟨.hbm, 76, rfl⟩
abbrev main_c_4 : Ref sig .tc := ⟨.hbm, 77, rfl⟩
abbrev main_v46 : Ref sig .tc := ⟨.hbm, 78, rfl⟩
abbrev main_v47 : Ref sig .tc := ⟨.hbm, 79, rfl⟩
abbrev main_c_5 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_6 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_call4_cst : Ref sig .tc := ⟨.hbm, 95, rfl⟩
abbrev main_call4_v0 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_call5_cst : Ref sig .tc := ⟨.hbm, 102, rfl⟩
abbrev main_call5_v0 : Ref sig .tc := ⟨.hbm, 103, rfl⟩
abbrev main_v66 : Ref sig .tc := ⟨.hbm, 104, rfl⟩
abbrev main_cst_7 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_8 : Ref sig .tc := ⟨.hbm, 109, rfl⟩
abbrev main_v70 : Ref sig .tc := ⟨.hbm, 110, rfl⟩
abbrev main_cst_9 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_10 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S512x64 : S_.BroadcastsInDim S512x64 (![] : Fin 0 → Fin S512x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x1_S512x1_1_0_0_1_n_n_wf : DotDims.WF S512x64 S64x1 S512x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.Spec.lean ====
/-
  The vocabulary of the bridge between the two programs of a three-layer GIN critic.

  A layer maps node features `x` (50000 × 64) to
      relu (relu ((agg + x) · wa + ba) · wb + bb),     agg = segment_sum (x[src], dst)
  and the head maps the last layer's features to  (sums / max (cnt, 1)) · wl + bl,  sums and cnt the per-graph
  sums of the features and of ones.  The kernel's program computes the two dense products of a layer, and the head's
  product, in Pallas regions; the reference computes them on the host.  Both gather the rows `x[src]` on the host;
  the kernel's gather (`jnp.take`, mode "fill") additionally replaces a row whose index is out of range by NaN.

  This module fixes, once, the functions the rest of the proof speaks about:
  * `K.mlpArr`, `K.poolArr`: what a region's output array holds, index by index, as sums over the 64 hidden units;
  * `K.src`, `K.dst`, `K.nidx`, `K.takeK`, `K.aggK`, `K.pooledK`: the kernel program's host operations between regions;
  * `K.layerK`, `K.tailK`: a layer and the head of the kernel's program;
  * `R.mlpR`, `R.aggR`, `R.layerR`, `R.pooledR`, `R.headR`, `R.tailR` (and `R.src`, `R.dst`, `R.nidx`): the same pieces of the reference, in its own host operations.
-/
import proofs.«415730_j77171972374916_1_alg».proof.Proof.Gen.KernelIdeal
import proofs.«415730_j77171972374916_1_alg».proof.Proof.Gen.ReferenceIdeal
import Idealize.ShloMosaic.PureOps.Ideal
import Idealize.ShloMosaic.Lib.ValueIdx

noncomputable section

open Idealize.ShloMosaic

namespace Cert.Gin.K

open Cert.KernelIdeal Cert.KernelIdeal.Facts₀ Cert.KernelIdeal.Facts Idealize.ShloMosaic.ValueIdx

/-- The f32 zero both programs compare against in `relu`. -/
abbrev zero32 : Ideal .f32 := Ideal.ofBits .f32 0x00000000#32

/-- A layer's dense part, index by index: row `i 0` of `agg + x` through the two 64 × 64 products, each followed by its
    bias and `relu`. The biases come as 1 × 64 rows. -/
def mlpArr (agg x : FVec Ideal S50000x64 .f32) (wa : FVec Ideal S64x64 .f32) (ba : FVec Ideal S1x64 .f32)
    (wb : FVec Ideal S64x64 .f32) (bb : FVec Ideal S1x64 .f32) : FVec Ideal S50000x64 .f32 := fun i =>
  max ((∑ k : Fin 64,
          max ((∑ l : Fin 64, (agg (ix2 (i 0) l) + x (ix2 (i 0) l)) * wa (ix2 l k)) + ba (ix2 (0 : Fin 1) k)) zero32
            * wb (ix2 k (i 1)))
        + bb (ix2 (0 : Fin 1) (i 1))) zero32

/-- The head's dense part, index by index: row `i 0` of the pooled features times the 64 × 1 weight, plus the bias. -/
def poolArr (p : FVec Ideal S512x64 .f32) (wl : FVec Ideal S64x1 .f32) (bl : FVec Ideal S1x1 .f32) : FVec Ideal S512x1 .f32 := fun i =>
  (∑ k : Fin 64, p (ix2 (i 0) k) * wl (ix2 k (i 1))) + bl (ix2 (0 : Fin 1) (0 : Fin 1))

/-- Row 0 of the edge list: the source node of every edge. -/
def src (e : IVec S2x800000 32) : IVec S800000 32 :=
  shapeCast _ (extractStridedSlice S1x800000 ![0, 0] e slices_S2x800000_S1x800000_0_0) shapeCasts_S1x800000_S800000

/-- Row 1 of the edge list: the destination node of every edge. -/
def dst (e : IVec S2x800000 32) : IVec S800000 32 :=
  shapeCast _ (extractStridedSlice S1x800000 ![1, 0] e slices_S2x800000_S1x800000_1_0) shapeCasts_S1x800000_S800000

/-- The source indices as the gather takes them: a negative index counted from the end, as one column. -/
def nidx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Which edges have their (normalised) source index inside `[0, 49999]`. -/
def inRange (j : IVec S800000x1 32) : IVec S800000 1 :=
  Host.reduce IntOp.andi
    (andi (cmpi .sge j (broadcastInDim S800000x1 ![] bcast_S_S800000x1 (constantI S_ 32 0#32)))
      (cmpi .sle j (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The kernel program's gather of the rows `x[src]`: rows whose index is out of range are replaced by NaN. -/
def takeK (x : FVec Ideal S50000x64 .f32) (j : IVec S800000x1 32) : FVec Ideal S800000x64 .f32 :=
  select (broadcastInDim S800000x64 ![0] bcast_S800000_S800000x64_0 (inRange j))
    (Host.gather gather_S50000x64_S800000x1_S800000x64_1_0_n_n_0_1_164 x j)
    (broadcastInDim S800000x64 ![] bcast_S_S800000x64 (constant S_ .f32 0x7FC00000#32))

/-- The kernel program's neighbour sum: the gathered rows added into their destination rows. -/
def aggK (x : FVec Ideal S50000x64 .f32) (e : IVec S2x800000 32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 (dst e))
    (takeK x (nidx (src e)))

/-- Mean pooling per graph: the per-graph sums of the features over the per-graph node counts (at least one). -/
def pooledK (x : FVec Ideal S50000x64 .f32) (b : IVec S50000 32) : FVec Ideal S512x64 .f32 :=
  Host.divf
    (Host.scatterAdd scatter_S512x64_S50000x1_S50000x64_1_0_0_1
      (broadcastInDim S512x64 ![] bcast_S_S512x64 (constant S_ .f32 0x00000000#32))
      (broadcastInDim S50000x1 ![0] bcast_S50000_S50000x1_0 b) x)
    (broadcastInDim S512x64 ![0, 1] bcast_S512x1_S512x64_0_1
      (broadcastInDim S512x1 ![0] bcast_S512_S512x1_0
        (maximumf
          (Host.scatterAdd scatter_S512_S50000x1_S50000_n_0_0_1
            (broadcastInDim S512 ![] bcast_S_S512 (constant S_ .f32 0x00000000#32))
            (broadcastInDim S50000x1 ![0] bcast_S50000_S50000x1_0 b)
            (broadcastInDim S50000 ![] bcast_S_S50000 (constant S_ .f32 0x3F800000#32)))
          (broadcastInDim S512 ![] bcast_S_S512 (constant S_ .f32 0x3F800000#32)))))

/-- One layer of the kernel's program. -/
def layerK (e : IVec S2x800000 32) (x : FVec Ideal S50000x64 .f32) (wa : FVec Ideal S64x64 .f32) (ba : FVec Ideal S64 .f32)
    (wb : FVec Ideal S64x64 .f32) (bb : FVec Ideal S64 .f32) : FVec Ideal S50000x64 .f32 :=
  mlpArr (aggK x e) x wa (shapeCast _ ba shapeCasts_S64_S1x64) wb (shapeCast _ bb shapeCasts_S64_S1x64)

/-- The head of the kernel's program. -/
def tailK (b : IVec S50000 32) (x : FVec Ideal S50000x64 .f32) (wl : FVec Ideal S64x1 .f32) (bl : FVec Ideal S1 .f32) : FVec Ideal S512x1 .f32 :=
  poolArr (pooledK x b) wl (shapeCast _ bl shapeCasts_S1_S1x1)

end Cert.Gin.K

namespace Cert.Gin.R

open Cert.ReferenceIdeal Cert.ReferenceIdeal.Facts₀ Cert.ReferenceIdeal.Facts

/-- Row 0 of the edge list. -/
def src (e : IVec S2x800000 32) : IVec S800000 32 :=
  shapeCast _ (extractStridedSlice S1x800000 ![0, 0] e slices_S2x800000_S1x800000_0_0) shapeCasts_S1x800000_S800000

/-- Row 1 of the edge list. -/
def dst (e : IVec S2x800000 32) : IVec S800000 32 :=
  shapeCast _ (extractStridedSlice S1x800000 ![1, 0] e slices_S2x800000_S1x800000_1_0) shapeCasts_S1x800000_S800000

/-- The source indices as the gather takes them: a negative index counted from the end, as one column. -/
def nidx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- A layer's dense part in the reference's own host operations: relu (relu ((agg + x) · wa + ba) · wb + bb). -/
def mlpR (agg x : FVec Ideal S50000x64 .f32) (wa : FVec Ideal S64x64 .f32) (ba : FVec Ideal S64 .f32)
    (wb : FVec Ideal S64x64 .f32) (bb : FVec Ideal S64 .f32) : FVec Ideal S50000x64 .f32 :=
  maximumf (addf (Host.dotGeneral dot_S50000x64_S64x64_S50000x64_1_0_0_1_n_n none
      (maximumf (addf (Host.dotGeneral dot_S50000x64_S64x64_S50000x64_1_0_0_1_n_n none (addf agg x) wa)
        (broadcastInDim S50000x64 ![0, 1] bcast_S1x64_S50000x64_0_1 (broadcastInDim S1x64 ![1] bcast_S64_S1x64_1 ba)))
        (broadcastInDim S50000x64 ![] bcast_S_S50000x64 (constant S_ .f32 0x00000000#32))) wb)
    (broadcastInDim S50000x64 ![0, 1] bcast_S1x64_S50000x64_0_1 (broadcastInDim S1x64 ![1] bcast_S64_S1x64_1 bb)))
    (broadcastInDim S50000x64 ![] bcast_S_S50000x64 (constant S_ .f32 0x00000000#32))

/-- The reference's neighbour sum: the rows `x[src]` added into their destination rows. -/
def aggR (x : FVec Ideal S50000x64 .f32) (e : IVec S2x800000 32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 (dst e))
    (Host.gather gather_S50000x64_S800000x1_S800000x64_1_0_n_n_0_1_164 x (nidx (src e)))

/-- One layer of the reference. -/
def layerR (e : IVec S2x800000 32) (x : FVec Ideal S50000x64 .f32) (wa : FVec Ideal S64x64 .f32) (ba : FVec Ideal S64 .f32)
    (wb : FVec Ideal S64x64 .f32) (bb : FVec Ideal S64 .f32) : FVec Ideal S50000x64 .f32 :=
  mlpR (aggR x e) x wa ba wb bb

/-- Mean pooling per graph in the reference's own host operations. -/
def pooledR (x : FVec Ideal S50000x64 .f32) (b : IVec S50000 32) : FVec Ideal S512x64 .f32 :=
  Host.divf
    (Host.scatterAdd scatter_S512x64_S50000x1_S50000x64_1_0_0_1
      (broadcastInDim S512x64 ![] bcast_S_S512x64 (constant S_ .f32 0x00000000#32))
      (broadcastInDim S50000x1 ![0] bcast_S50000_S50000x1_0 b) x)
    (broadcastInDim S512x64 ![0, 1] bcast_S512x1_S512x64_0_1
      (broadcastInDim S512x1 ![0] bcast_S512_S512x1_0
        (maximumf
          (Host.scatterAdd scatter_S512_S50000x1_S50000_n_0_0_1
            (broadcastInDim S512 ![] bcast_S_S512 (constant S_ .f32 0x00000000#32))
            (broadcastInDim S50000x1 ![0] bcast_S50000_S50000x1_0 b)
            (broadcastInDim S50000 ![] bcast_S_S50000 (constant S_ .f32 0x3F800000#32)))
          (broadcastInDim S512 ![] bcast_S_S512 (constant S_ .f32 0x3F800000#32)))))

/-- The head's dense part in the reference's own host operations: p · wl + bl. -/
def headR (p : FVec Ideal S512x64 .f32) (wl : FVec Ideal S64x1 .f32) (bl : FVec Ideal S1 .f32) : FVec Ideal S512x1 .f32 :=
  addf (Host.dotGeneral dot_S512x64_S64x1_S512x1_1_0_0_1_n_n none p wl)
    (broadcastInDim S512x1 ![0, 1] bcast_S1x1_S512x1_0_1 (broadcastInDim S1x1 ![1] bcast_S1_S1x1_1 bl))

/-- The head of the reference. -/
def tailR (b : IVec S50000 32) (x : FVec Ideal S50000x64 .f32) (wl : FVec Ideal S64x1 .f32) (bl : FVec Ideal S1 .f32) : FVec Ideal S512x1 .f32 :=
  headR (pooledR x b) wl bl

end Cert.Gin.R

end
-- ==== Proof.MlpPay.lean ====
import proofs.«415730_j77171972374916_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open Idealize.ShloMosaic Idealize.ShloMosaic.TcCoe Idealize.SL.Sem

namespace Cert.Gin.K

open Cert.KernelIdeal Cert.KernelIdeal.Gen Idealize.ShloMosaic.ValueIdx

/-! # The kernel's payloads read at an index

Each region stores one pure value. For the three layer regions it is, at row `p` and column `q` of a 5000-row block,
`relu (relu ((v0 + v2) · wa + ba) · wb + bb)` with both products contracted over the 64 shared coordinates and each bias
row read at the entry's column; for the head region it is the row of the pooled block times the weight column plus the
one bias entry. The steps: a product into the zero accumulator read at an index is the sum over the contracted axis of
the operands at the indices the dimension numbers give, and those indices are (row, k) and (k, column); a broadcast
bias row reads its entry at the column; a shape cast to the same shape is the identity; the sums, maxima and scalar
broadcasts read through pointwise. -/

/-! ## The layer product's operand indices, axis by axis -/

theorem lhs_mlp_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_mlp_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_mlp_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_mlp_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A 5000×64 by 64×64 product into the zero accumulator, read at row `p`, column `q`: the sum over the 64 shared
    coordinates of the row's entries times the column's. -/
theorem mlp_matmul_apply (a : FVec Ideal S5000x64 .f32) (b : FVec Ideal S64x64 .f32) (p : Fin 5000) (q : Fin 64) :
    matmul dot_S5000x64_S64x64_S5000x64_1_0_0_1_n_n none a b (constant (F := Ideal) S5000x64 .f32 0x00000000#32) (ix2 p q)
      = ∑ k : Fin 64, a (ix2 p k) * b (ix2 k q) := by
  refine (Ideal.matmul_constant_zero_apply dot_S5000x64_S64x64_S5000x64_1_0_0_1_n_n none a b (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_mlp_0 _ _
    | ⟨1, _⟩ => exact (lhs_mlp_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_mlp_0 _ _).trans hk
    | ⟨1, _⟩ => exact rhs_mlp_1 _ _)
  rw [el, er]

/-- A 1×64 bias row broadcast over the 5000 rows, read at row `p`, column `q`: the row's entry at column `q`. -/
theorem mlp_bias_apply (x : FVec Ideal S1x64 .f32) (p : Fin 5000) (q : Fin 64) :
    broadcastTo S5000x64 x broadcasts_S1x64_S5000x64 (ix2 p q) = x (ix2 (0 : Fin 1) q) :=
  broadcastTo_apply x broadcasts_S1x64_S5000x64 (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-- The first three regions' payload at row `p`, column `q` of a 5000-row block: the row of `v0 + v2` through the two
    products, each with its bias row and `relu`. -/
theorem k0_pay1_apply (v0 v2 : Vec Ideal S5000x64 .f32) (v4 : Vec Ideal S64x64 .f32) (v6 : Vec Ideal S1x64 .f32)
    (v12 : Vec Ideal S64x64 .f32) (v14 : Vec Ideal S1x64 .f32) (p : Fin 5000) (q : Fin 64) :
    k0_pay1 (F := Ideal) v0 v2 v4 v6 v12 v14 (ix2 p q)
      = max ((∑ k : Fin 64,
                max ((∑ l : Fin 64, (v0 (ix2 p l) + v2 (ix2 p l)) * v4 (ix2 l k)) + v6 (ix2 (0 : Fin 1) k)) (Ideal.ofBits .f32 0x00000000#32)
                  * v12 (ix2 k q))
              + v14 (ix2 (0 : Fin 1) q)) (Ideal.ofBits .f32 0x00000000#32) := by
  unfold k0_pay1
  rw [shapeCast_self, shapeCast_self, shapeCast_self]
  -- the outer relu, bias and product at (p, q)
  rw [maximumf_apply, addf_apply, mlp_bias_apply, mlp_matmul_apply]
  refine congrArg (fun z => max (z + v14 (ix2 (0 : Fin 1) q)) (Ideal.ofBits .f32 0x00000000#32)) ?_
  refine Finset.sum_congr rfl fun k _ => ?_
  -- the inner relu, bias and product at (p, k)
  rw [maximumf_apply, addf_apply, mlp_bias_apply, mlp_matmul_apply]
  rfl

/-- The three layer kernels have one body: the second and third only pass `v2` through a shape cast to its own shape,
    which is the identity. -/
theorem k1_pay1_eq (v0 v2 : Vec Ideal S5000x64 .f32) (v4 : Vec Ideal S64x64 .f32) (v6 : Vec Ideal S1x64 .f32)
    (v12 : Vec Ideal S64x64 .f32) (v14 : Vec Ideal S1x64 .f32) :
    k1_pay1 (F := Ideal) v0 v2 v4 v6 v12 v14 = k0_pay1 (F := Ideal) v0 v2 v4 v6 v12 v14 := by
  unfold k1_pay1 k0_pay1
  simp only [shapeCast_self]
theorem k2_pay1_eq (v0 v2 : Vec Ideal S5000x64 .f32) (v4 : Vec Ideal S64x64 .f32) (v6 : Vec Ideal S1x64 .f32)
    (v12 : Vec Ideal S64x64 .f32) (v14 : Vec Ideal S1x64 .f32) :
    k2_pay1 (F := Ideal) v0 v2 v4 v6 v12 v14 = k0_pay1 (F := Ideal) v0 v2 v4 v6 v12 v14 := by
  unfold k2_pay1 k0_pay1
  simp only [shapeCast_self]

/-! ## The head product's operand indices, axis by axis -/

theorem lhs_head_0 (i : S512x1.Idx) (q : dot_S512x64_S64x1_S512x1_1_0_0_1_n_n.contr.Idx) :
    (dot_S512x64_S64x1_S512x1_1_0_0_1_n_n.lhsIdx i q 0).val = (i 0).val := by
  unfold DotDims.lhsIdx
  rw [dif_neg (show ¬(0 : Fin S512x64.rank) ∈ dot_S512x64_S64x1_S512x1_1_0_0_1_n_n.lhsBatch by decide), dif_pos (show (0 : Fin S512x64.rank) ∈ dot_S512x64_S64x1_S512x1_1_0_0_1_n_n.lhsNonContracting by decide)]
  rfl
theorem lhs_head_1 (i : S512x1.Idx) (q : dot_S512x64_S64x1_S512x1_1_0_0_1_n_n.contr.Idx) :
    (dot_S512x64_S64x1_S512x1_1_0_0_1_n_n.lhsIdx i q 1).val = (q ⟨0, by decide⟩).val :=
  dot_S512x64_S64x1_S512x1_1_0_0_1_n_n.lhsIdx_val_of_single rfl i q
theorem rhs_head_0 (i : S512x1.Idx) (q : dot_S512x64_S64x1_S512x1_1_0_0_1_n_n.contr.Idx) :
    (dot_S512x64_S64x1_S512x1_1_0_0_1_n_n.rhsIdx i q 0).val = (q ⟨0, by decide⟩).val :=
  dot_S512x64_S64x1_S512x1_1_0_0_1_n_n.rhsIdx_val_of_single rfl i q
theorem rhs_head_1 (i : S512x1.Idx) (q : dot_S512x64_S64x1_S512x1_1_0_0_1_n_n.contr.Idx) :
    (dot_S512x64_S64x1_S512x1_1_0_0_1_n_n.rhsIdx i q 1).val = (i 1).val := by
  unfold DotDims.rhsIdx
  rw [dif_neg (show ¬(1 : Fin S64x1.rank) ∈ dot_S512x64_S64x1_S512x1_1_0_0_1_n_n.rhsBatch by decide), dif_pos (show (1 : Fin S64x1.rank) ∈ dot_S512x64_S64x1_S512x1_1_0_0_1_n_n.rhsNonContracting by decide)]
  rfl

/-- A 512×64 by 64×1 product into the zero accumulator, read at row `p` (column `q`): the sum over the 64 shared
    coordinates of the row's entries times the column's. -/
theorem head_matmul_apply (a : FVec Ideal S512x64 .f32) (b : FVec Ideal S64x1 .f32) (p : Fin 512) (q : Fin 1) :
    matmul dot_S512x64_S64x1_S512x1_1_0_0_1_n_n none a b (constant (F := Ideal) S512x1 .f32 0x00000000#32) (ix2 p q)
      = ∑ k : Fin 64, a (ix2 p k) * b (ix2 k q) := by
  refine (Ideal.matmul_constant_zero_apply dot_S512x64_S64x1_S512x1_1_0_0_1_n_n none a b (ix2 p q)).trans ?_
  rw [← Equiv.sum_comp (contrEquiv1 dot_S512x64_S64x1_S512x1_1_0_0_1_n_n 64 rfl rfl).symm]
  refine Finset.sum_congr rfl fun k _ => ?_
  have hk := contrEquiv1_symm_val dot_S512x64_S64x1_S512x1_1_0_0_1_n_n 64 rfl rfl k
  have el : dot_S512x64_S64x1_S512x1_1_0_0_1_n_n.lhsIdx (ix2 p q) ((contrEquiv1 dot_S512x64_S64x1_S512x1_1_0_0_1_n_n 64 rfl rfl).symm k) = ix2 p k := funext fun a => Fin.ext (by
    match a with
    | ⟨0, _⟩ => exact lhs_head_0 _ _
    | ⟨1, _⟩ => exact (lhs_head_1 _ _).trans hk)
  have er : dot_S512x64_S64x1_S512x1_1_0_0_1_n_n.rhsIdx (ix2 p q) ((contrEquiv1 dot_S512x64_S64x1_S512x1_1_0_0_1_n_n 64 rfl rfl).symm k) = ix2 k q := funext fun a => Fin.ext (by
    match a with
    | ⟨0, _⟩ => exact (rhs_head_0 _ _).trans hk
    | ⟨1, _⟩ => exact rhs_head_1 _ _)
  rw [el, er]

/-- The 1×1 bias broadcast over the 512 rows reads its one entry everywhere. -/
theorem head_bias_apply (x : FVec Ideal S1x1 .f32) (p : Fin 512) (q : Fin 1) :
    broadcastTo S512x1 x broadcasts_S1x1_S512x1 (ix2 p q) = x (ix2 (0 : Fin 1) (0 : Fin 1)) :=
  broadcastTo_apply x broadcasts_S1x1_S512x1 (ix2 p q) (ix2 (0 : Fin 1) (0 : Fin 1)) (fun a => match a with
    | ⟨0, _⟩ => by show 0 = if (1 : Nat) = 1 then 0 else p.val; rw [if_pos rfl]
    | ⟨1, _⟩ => by show 0 = if (1 : Nat) = 1 then 0 else q.val; rw [if_pos rfl])

/-- The head region's payload at row `p` (its one column): the row of `v0` times the weight column, plus the bias. -/
theorem k3_pay1_apply (v0 : Vec Ideal S512x64 .f32) (v2 : Vec Ideal S64x1 .f32) (v4 : Vec Ideal S1x1 .f32) (p : Fin 512) (q : Fin 1) :
    k3_pay1 (F := Ideal) v0 v2 v4 (ix2 p q)
      = (∑ k : Fin 64, v0 (ix2 p k) * v2 (ix2 k q)) + v4 (ix2 (0 : Fin 1) (0 : Fin 1)) := by
  unfold k3_pay1
  rw [shapeCast_self, shapeCast_self]
  rw [addf_apply, head_bias_apply, head_matmul_apply]

/-- The second and third layer kernels' payloads at an index: the same formula, their bodies being the first's. -/
theorem k1_pay1_apply (v0 v2 : Vec Ideal S5000x64 .f32) (v4 : Vec Ideal S64x64 .f32) (v6 : Vec Ideal S1x64 .f32)
    (v12 : Vec Ideal S64x64 .f32) (v14 : Vec Ideal S1x64 .f32) (p : Fin 5000) (q : Fin 64) :
    k1_pay1 (F := Ideal) v0 v2 v4 v6 v12 v14 (ix2 p q)
      = max ((∑ k : Fin 64,
                max ((∑ l : Fin 64, (v0 (ix2 p l) + v2 (ix2 p l)) * v4 (ix2 l k)) + v6 (ix2 (0 : Fin 1) k)) (Ideal.ofBits .f32 0x00000000#32)
                  * v12 (ix2 k q))
              + v14 (ix2 (0 : Fin 1) q)) (Ideal.ofBits .f32 0x00000000#32) := by
  rw [k1_pay1_eq]; exact k0_pay1_apply v0 v2 v4 v6 v12 v14 p q

theorem k2_pay1_apply (v0 v2 : Vec Ideal S5000x64 .f32) (v4 : Vec Ideal S64x64 .f32) (v6 : Vec Ideal S1x64 .f32)
    (v12 : Vec Ideal S64x64 .f32) (v14 : Vec Ideal S1x64 .f32) (p : Fin 5000) (q : Fin 64) :
    k2_pay1 (F := Ideal) v0 v2 v4 v6 v12 v14 (ix2 p q)
      = max ((∑ k : Fin 64,
                max ((∑ l : Fin 64, (v0 (ix2 p l) + v2 (ix2 p l)) * v4 (ix2 l k)) + v6 (ix2 (0 : Fin 1) k)) (Ideal.ofBits .f32 0x00000000#32)
                  * v12 (ix2 k q))
              + v14 (ix2 (0 : Fin 1) q)) (Ideal.ofBits .f32 0x00000000#32) := by
  rw [k2_pay1_eq]; exact k0_pay1_apply v0 v2 v4 v6 v12 v14 p q

end Cert.Gin.K

end
-- ==== Proof.Region0.lean ====
import proofs.«415730_j77171972374916_1_alg».proof.Proof.Gen.KernelIdeal.Frame
import proofs.«415730_j77171972374916_1_alg».proof.Proof.Spec
import proofs.«415730_j77171972374916_1_alg».proof.Proof.MlpPay
import Idealize.ShloMosaic.Lib.Pipeline.Value
import Idealize.ShloMosaic.Lib.ValueIdx

set_option maxRecDepth 16384

noncomputable section

open Idealize.ShloMosaic Idealize.ShloMosaic.TcCoe Idealize.SL.Sem

namespace Cert.Gin.K

open Cert.KernelIdeal Cert.KernelIdeal.Gen Idealize.ShloMosaic.ValueIdx

variable (V : (c : Dev nD) → (b : Ref sig .tc) → Buf (Elt Ideal) ((c : Thread nD τ).loc b))

/-- The zero offsets of a whole-block access, as the constant function. -/
theorem zero_offsets0 : (![0, 0] : Fin 2 → Nat) = fun _ => 0 := funext fun a => by fin_cases a <;> rfl

/-- One element of a block of the layer's dense part: when row `p` of the two 5000-row blocks is row `r` of the two
    50000-row arrays, and the weight and bias blocks are the whole weight and bias arrays, the block's element at
    `(p, q)` is the array's element at `(r, q)`. -/
theorem mlp_point0 (x0 x1 : Vec Ideal S5000x64 .f32) (x2 : Vec Ideal S64x64 .f32) (x3 : Vec Ideal S1x64 .f32)
    (x4 : Vec Ideal S64x64 .f32) (x5 : Vec Ideal S1x64 .f32)
    (agg x : FVec Ideal S50000x64 .f32) (wa : FVec Ideal S64x64 .f32) (ba : FVec Ideal S1x64 .f32)
    (wb : FVec Ideal S64x64 .f32) (bb : FVec Ideal S1x64 .f32)
    (p : Fin 5000) (q : Fin 64) (r : Fin 50000)
    (h0 : ∀ l : Fin 64, x0 (ix2 p l) = agg (ix2 r l))
    (h1 : ∀ l : Fin 64, x1 (ix2 p l) = x (ix2 r l))
    (h2 : x2 = wa) (h3 : x3 = ba) (h4 : x4 = wb) (h5 : x5 = bb) :
    k0_pay1 (F := Ideal) x0 x1 x2 x3 x4 x5 (ix2 p q) = mlpArr agg x wa ba wb bb (ix2 r q) := by
  rw [k0_pay1_apply]
  subst h2 h3 h4 h5
  simp only [h0, h1]
  rfl

/-- The printed index maps, decided over the ten points: the two row-blocked inputs move with the output along the rows
    and stay at column block 0; the weights and biases stay at block (0, 0); the output's row block is at most 9. -/
theorem idx_facts0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 9 ∧ win0_6.index t (1 : Fin 2) = 0 :=
  (by decide +kernel : ∀ t : Fin grid0.N, _)

/-- Every row block 0 … 9 of the output is some point's. -/
theorem idx_onto0 : ∀ b : Fin 10, ∃ t : Fin cfg0.N, win0_6.index t = ![b.val, 0] :=
  (by decide +kernel : ∀ b : Fin 10, ∃ t : Fin grid0.N, win0_6.index t = ![b.val, 0])

/-- A row-blocked input's block at point `t`, row `p`, column `l`, is the array's row `r` when `r` is the row the
    output's block puts `p` at: input 0 (the neighbour sums). -/
theorem blk0_0_read (c : Dev nD) (t : Fin cfg0.N) (p : Fin 5000) (l : Fin 64) (r : Fin 50000)
    (hr : r.val = win0_6.index t (0 : Fin 2) * 5000 + p.val) :
    (iblk0 (F := Ideal) V c 0 t : Vec Ideal S5000x64 .f32) (ix2 p l) = (V c main_v7 : FVec Ideal S50000x64 .f32) (ix2 r l) := by
  obtain ⟨e00, e01, -⟩ := idx_facts0 t
  unfold iblk0
  rw [View.read_apply]
  show V c main_v7 _ = V c main_v7 _
  congr 1
  funext a
  apply Fin.ext
  match a with
  | ⟨0, _⟩ => show win0_0.index t (0 : Fin 2) * 5000 + 1 * p.val = r.val; omega
  | ⟨1, _⟩ => show win0_0.index t (1 : Fin 2) * 64 + 1 * l.val = l.val; omega

/-- The same for input 1 (the features). -/
theorem blk0_1_read (c : Dev nD) (t : Fin cfg0.N) (p : Fin 5000) (l : Fin 64) (r : Fin 50000)
    (hr : r.val = win0_6.index t (0 : Fin 2) * 5000 + p.val) :
    (iblk0 (F := Ideal) V c 1 t : Vec Ideal S5000x64 .f32) (ix2 p l) = (V c main_arg0 : FVec Ideal S50000x64 .f32) (ix2 r l) := by
  obtain ⟨-, -, e10, e11, -⟩ := idx_facts0 t
  unfold iblk0
  rw [View.read_apply]
  show V c main_arg0 _ = V c main_arg0 _
  congr 1
  funext a
  apply Fin.ext
  match a with
  | ⟨0, _⟩ => show win0_1.index t (0 : Fin 2) * 5000 + 1 * p.val = r.val; omega
  | ⟨1, _⟩ => show win0_1.index t (1 : Fin 2) * 64 + 1 * l.val = l.val; omega

/-- A whole-array input's block at any point is the array: the first weight, -/
theorem blk0_2_read (c : Dev nD) (t : Fin cfg0.N) :
    (iblk0 (F := Ideal) V c 2 t : Vec Ideal S64x64 .f32) = (V c main_arg3 : FVec Ideal S64x64 .f32) := by
  obtain ⟨-, -, -, -, e20, e21, -⟩ := idx_facts0 t
  funext y
  unfold iblk0
  rw [View.read_apply]
  show V c main_arg3 _ = V c main_arg3 _
  congr 1
  funext a
  apply Fin.ext
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- the first bias row, -/
theorem blk0_3_read (c : Dev nD) (t : Fin cfg0.N) :
    (iblk0 (F := Ideal) V c 3 t : Vec Ideal S1x64 .f32) = (V c main_v8 : FVec Ideal S1x64 .f32) := by
  obtain ⟨-, -, -, -, -, -, e30, e31, -⟩ := idx_facts0 t
  funext y
  unfold iblk0
  rw [View.read_apply]
  show V c main_v8 _ = V c main_v8 _
  congr 1
  funext a
  apply Fin.ext
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- the second weight, -/
theorem blk0_4_read (c : Dev nD) (t : Fin cfg0.N) :
    (iblk0 (F := Ideal) V c 4 t : Vec Ideal S64x64 .f32) = (V c main_arg5 : FVec Ideal S64x64 .f32) := by
  obtain ⟨-, -, -, -, -, -, -, -, e40, e41, -⟩ := idx_facts0 t
  funext y
  unfold iblk0
  rw [View.read_apply]
  show V c main_arg5 _ = V c main_arg5 _
  congr 1
  funext a
  apply Fin.ext
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- and the second bias row. -/
theorem blk0_5_read (c : Dev nD) (t : Fin cfg0.N) :
    (iblk0 (F := Ideal) V c 5 t : Vec Ideal S1x64 .f32) = (V c main_v9 : FVec Ideal S1x64 .f32) := by
  obtain ⟨-, -, -, -, -, -, -, -, -, -, e50, e51, -⟩ := idx_facts0 t
  funext y
  unfold iblk0
  rw [View.read_apply]
  show V c main_v9 _ = V c main_v9 _
  congr 1
  funext a
  apply Fin.ext
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- What point `t` writes back is block `t` of the layer's dense part of the arrays as the region finds them: the body's one
    whole-block store leaves its payload of the six input blocks, and each element of that payload is the dense part at
    the array index the output's block puts it at. -/
theorem flushed0_6_eq (c : Dev nD) (t : Fin cfg0.N) :
    (dat0 (F := Ideal) V c).flushed 6 t
      = ((cfg0.win 6).blk t).view.read (Elt Ideal) (mlpArr (V c main_v7) (V c main_arg0) (V c main_arg3) (V c main_v8) (V c main_arg5) (V c main_v9)) := by
  show (cfg0.win 6).cut (grid0.coords t) ((dat0 (F := Ideal) V c).after 6 t) = _
  rw [after0_6]
  unfold out0_6
  rw [View.canon_unit_zero zero_offsets0]
  simp only [View.ld_unit_zero (S := S5000x64) zero_offsets0, View.ld_unit_zero (S := S64x64) zero_offsets0,
    View.ld_unit_zero (S := S1x64) zero_offsets0]
  obtain ⟨-, -, -, -, -, -, -, -, -, -, -, -, e60, e61⟩ := idx_facts0 t
  funext j
  obtain ⟨p, q, rfl⟩ : ∃ (p : Fin 5000) (q : Fin 64), j = ix2 p q := ⟨j 0, j 1, eq_ix2 j⟩
  have hp : p.val < 5000 := p.isLt
  have hi : ((cfg0.win 6).blk t).view.emb (ix2 p q)
      = (ix2 (⟨win0_6.index t (0 : Fin 2) * 5000 + p.val, by omega⟩ : Fin 50000) q : S50000x64.Idx) := by
    funext a
    apply Fin.ext
    match a with
    | ⟨0, _⟩ => show win0_6.index t (0 : Fin 2) * 5000 + 1 * p.val = win0_6.index t (0 : Fin 2) * 5000 + p.val; omega
    | ⟨1, _⟩ => show win0_6.index t (1 : Fin 2) * 64 + 1 * q.val = q.val; omega
  rw [View.read_apply]
  refine (mlp_point0 _ _ _ _ _ _ (V c main_v7) (V c main_arg0) (V c main_arg3) (V c main_v8) (V c main_arg5) (V c main_v9)
    p q ⟨win0_6.index t (0 : Fin 2) * 5000 + p.val, by omega⟩
    (fun l => blk0_0_read V c t p l _ rfl) (fun l => blk0_1_read V c t p l _ rfl)
    (blk0_2_read V c t) (blk0_3_read V c t) (blk0_4_read V c t) (blk0_5_read V c t)).trans ?_
  exact (congrArg (mlpArr (V c main_v7) (V c main_arg0) (V c main_arg3) (V c main_v8) (V c main_arg5) (V c main_v9)) hi).symm

/-- An index of the output array is in point `t`'s block iff each coordinate is in the block's range on its axis. -/
theorem mem_blk0_6 (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v10).slice (win0_6.rect t)).set ↔ _
  rw [View.set_slice_whole, Rect.mem_set_unit]
  exact Iff.rfl

/-- The ten blocks cover the output array: row `r` is in the block of the point whose row block is `r / 5000`. -/
theorem cover0_6_arr (i : S50000x64.Idx) :
    ∃ t : Fin cfg0.N, (cfg0.win 6).flush t = true ∧ i ∈ ((cfg0.win 6).blk t).view.set := by
  have hi0 : (i 0).val < 50000 := (i 0).isLt
  have hi1 : (i 1).val < 64 := (i 1).isLt
  obtain ⟨t, ht⟩ := idx_onto0 ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk0_6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- The first layer's region: whatever its arrays hold at entry (`V`), its output array ends holding the layer's
    dense part of the entry contents of its six input arrays, index by index. -/
theorem arr0 (c : Dev nD) : (dat0 (F := Ideal) V c).arrAt 6 cfg0.N
    = mlpArr (V c main_v7) (V c main_arg0) (V c main_arg3) (V c main_v8) (V c main_arg5) (V c main_v9) := by
  exact (dat0 (F := Ideal) V c).arrAt_eq_of_cover 6 _ (fun t _ => flushed0_6_eq V c t) cover0_6_arr

end Cert.Gin.K

end
-- ==== Proof.Region1.lean ====
import proofs.«415730_j77171972374916_1_alg».proof.Proof.Gen.KernelIdeal.Frame
import proofs.«415730_j77171972374916_1_alg».proof.Proof.Spec
import proofs.«415730_j77171972374916_1_alg».proof.Proof.MlpPay
import Idealize.ShloMosaic.Lib.Pipeline.Value
import Idealize.ShloMosaic.Lib.ValueIdx

set_option maxRecDepth 16384

noncomputable section

open Idealize.ShloMosaic Idealize.ShloMosaic.TcCoe Idealize.SL.Sem

namespace Cert.Gin.K.Layer1

open Cert.KernelIdeal Cert.KernelIdeal.Gen Idealize.ShloMosaic.ValueIdx

variable (V : (c : Dev nD) → (b : Ref sig .tc) → Buf (Elt Ideal) ((c : Thread nD τ).loc b))

/-- The zero offsets of a whole-block access, as the constant function. -/
theorem zero_offsets0 : (![0, 0] : Fin 2 → Nat) = fun _ => 0 := funext fun a => by fin_cases a <;> rfl

/-- One element of a block of the layer's dense part: when row `p` of the two 5000-row blocks is row `r` of the two
    50000-row arrays, and the weight and bias blocks are the whole weight and bias arrays, the block's element at
    `(p, q)` is the array's element at `(r, q)`. -/
theorem mlp_point0 (x0 x1 : Vec Ideal S5000x64 .f32) (x2 : Vec Ideal S64x64 .f32) (x3 : Vec Ideal S1x64 .f32)
    (x4 : Vec Ideal S64x64 .f32) (x5 : Vec Ideal S1x64 .f32)
    (agg x : FVec Ideal S50000x64 .f32) (wa : FVec Ideal S64x64 .f32) (ba : FVec Ideal S1x64 .f32)
    (wb : FVec Ideal S64x64 .f32) (bb : FVec Ideal S1x64 .f32)
    (p : Fin 5000) (q : Fin 64) (r : Fin 50000)
    (h0 : ∀ l : Fin 64, x0 (ix2 p l) = agg (ix2 r l))
    (h1 : ∀ l : Fin 64, x1 (ix2 p l) = x (ix2 r l))
    (h2 : x2 = wa) (h3 : x3 = ba) (h4 : x4 = wb) (h5 : x5 = bb) :
    k1_pay1 (F := Ideal) x0 x1 x2 x3 x4 x5 (ix2 p q) = mlpArr agg x wa ba wb bb (ix2 r q) := by
  rw [k1_pay1_apply]
  subst h2 h3 h4 h5
  simp only [h0, h1]
  rfl

/-- The printed index maps, decided over the ten points: the two row-blocked inputs move with the output along the rows
    and stay at column block 0; the weights and biases stay at block (0, 0); the output's row block is at most 9. -/
theorem idx_facts0 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 9 ∧ win1_6.index t (1 : Fin 2) = 0 :=
  (by decide +kernel : ∀ t : Fin grid1.N, _)

/-- Every row block 0 … 9 of the output is some point's. -/
theorem idx_onto0 : ∀ b : Fin 10, ∃ t : Fin cfg1.N, win1_6.index t = ![b.val, 0] :=
  (by decide +kernel : ∀ b : Fin 10, ∃ t : Fin grid1.N, win1_6.index t = ![b.val, 0])

/-- A row-blocked input's block at point `t`, row `p`, column `l`, is the array's row `r` when `r` is the row the
    output's block puts `p` at: input 0 (the neighbour sums). -/
theorem blk0_0_read (c : Dev nD) (t : Fin cfg1.N) (p : Fin 5000) (l : Fin 64) (r : Fin 50000)
    (hr : r.val = win1_6.index t (0 : Fin 2) * 5000 + p.val) :
    (iblk1 (F := Ideal) V c 0 t : Vec Ideal S5000x64 .f32) (ix2 p l) = (V c main_v14 : FVec Ideal S50000x64 .f32) (ix2 r l) := by
  obtain ⟨e00, e01, -⟩ := idx_facts0 t
  unfold iblk1
  rw [View.read_apply]
  show V c main_v14 _ = V c main_v14 _
  congr 1
  funext a
  apply Fin.ext
  match a with
  | ⟨0, _⟩ => show win1_0.index t (0 : Fin 2) * 5000 + 1 * p.val = r.val; omega
  | ⟨1, _⟩ => show win1_0.index t (1 : Fin 2) * 64 + 1 * l.val = l.val; omega

/-- The same for input 1 (the features). -/
theorem blk0_1_read (c : Dev nD) (t : Fin cfg1.N) (p : Fin 5000) (l : Fin 64) (r : Fin 50000)
    (hr : r.val = win1_6.index t (0 : Fin 2) * 5000 + p.val) :
    (iblk1 (F := Ideal) V c 1 t : Vec Ideal S5000x64 .f32) (ix2 p l) = (V c main_v10 : FVec Ideal S50000x64 .f32) (ix2 r l) := by
  obtain ⟨-, -, e10, e11, -⟩ := idx_facts0 t
  unfold iblk1
  rw [View.read_apply]
  show V c main_v10 _ = V c main_v10 _
  congr 1
  funext a
  apply Fin.ext
  match a with
  | ⟨0, _⟩ => show win1_1.index t (0 : Fin 2) * 5000 + 1 * p.val = r.val; omega
  | ⟨1, _⟩ => show win1_1.index t (1 : Fin 2) * 64 + 1 * l.val = l.val; omega

/-- A whole-array input's block at any point is the array: the first weight, -/
theorem blk0_2_read (c : Dev nD) (t : Fin cfg1.N) :
    (iblk1 (F := Ideal) V c 2 t : Vec Ideal S64x64 .f32) = (V c main_arg7 : FVec Ideal S64x64 .f32) := by
  obtain ⟨-, -, -, -, e20, e21, -⟩ := idx_facts0 t
  funext y
  unfold iblk1
  rw [View.read_apply]
  show V c main_arg7 _ = V c main_arg7 _
  congr 1
  funext a
  apply Fin.ext
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- the first bias row, -/
theorem blk0_3_read (c : Dev nD) (t : Fin cfg1.N) :
    (iblk1 (F := Ideal) V c 3 t : Vec Ideal S1x64 .f32) = (V c main_v15 : FVec Ideal S1x64 .f32) := by
  obtain ⟨-, -, -, -, -, -, e30, e31, -⟩ := idx_facts0 t
  funext y
  unfold iblk1
  rw [View.read_apply]
  show V c main_v15 _ = V c main_v15 _
  congr 1
  funext a
  apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- the second weight, -/
theorem blk0_4_read (c : Dev nD) (t : Fin cfg1.N) :
    (iblk1 (F := Ideal) V c 4 t : Vec Ideal S64x64 .f32) = (V c main_arg9 : FVec Ideal S64x64 .f32) := by
  obtain ⟨-, -, -, -, -, -, -, -, e40, e41, -⟩ := idx_facts0 t
  funext y
  unfold iblk1
  rw [View.read_apply]
  show V c main_arg9 _ = V c main_arg9 _
  congr 1
  funext a
  apply Fin.ext
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- and the second bias row. -/
theorem blk0_5_read (c : Dev nD) (t : Fin cfg1.N) :
    (iblk1 (F := Ideal) V c 5 t : Vec Ideal S1x64 .f32) = (V c main_v16 : FVec Ideal S1x64 .f32) := by
  obtain ⟨-, -, -, -, -, -, -, -, -, -, e50, e51, -⟩ := idx_facts0 t
  funext y
  unfold iblk1
  rw [View.read_apply]
  show V c main_v16 _ = V c main_v16 _
  congr 1
  funext a
  apply Fin.ext
  match a with
  | ⟨0, _⟩ => show win1_5.index t (0 : Fin 2) * 1 + 1 * (y 0).val = (y 0).val; omega
  | ⟨1, _⟩ => show win1_5.index t (1 : Fin 2) * 64 + 1 * (y 1).val = (y 1).val; omega

/-- What point `t` writes back is block `t` of the layer's dense part of the arrays as the region finds them: the body's one
    whole-block store leaves its payload of the six input blocks, and each element of that payload is the dense part at
    the array index the output's block puts it at. -/
theorem flushed0_6_eq (c : Dev nD) (t : Fin cfg1.N) :
    (dat1 (F := Ideal) V c).flushed 6 t
      = ((cfg1.win 6).blk t).view.read (Elt Ideal) (mlpArr (V c main_v14) (V c main_v10) (V c main_arg7) (V c main_v15) (V c main_arg9) (V c main_v16)) := by
  show (cfg1.win 6).cut (grid1.coords t) ((dat1 (F := Ideal) V c).after 6 t) = _
  rw [after1_6]
  unfold out1_6
  rw [View.canon_unit_zero zero_offsets0]
  simp only [View.ld_unit_zero (S := S5000x64) zero_offsets0, View.ld_unit_zero (S := S64x64) zero_offsets0,
    View.ld_unit_zero (S := S1x64) zero_offsets0]
  obtain ⟨-, -, -, -, -, -, -, -, -, -, -, -, e60, e61⟩ := idx_facts0 t
  funext j
  obtain ⟨p, q, rfl⟩ : ∃ (p : Fin 5000) (q : Fin 64), j = ix2 p q := ⟨j 0, j 1, eq_ix2 j⟩
  have hp : p.val < 5000 := p.isLt
  have hi : ((cfg1.win 6).blk t).view.emb (ix2 p q)
      = (ix2 (⟨win1_6.index t (0 : Fin 2) * 5000 + p.val, by omega⟩ : Fin 50000) q : S50000x64.Idx) := by
    funext a
    apply Fin.ext
    match a with
    | ⟨0, _⟩ => show win1_6.index t (0 : Fin 2) * 5000 + 1 * p.val = win1_6.index t (0 : Fin 2) * 5000 + p.val; omega
    | ⟨1, _⟩ => show win1_6.index t (1 : Fin 2) * 64 + 1 * q.val = q.val; omega
  rw [View.read_apply]
  refine (mlp_point0 _ _ _ _ _ _ (V c main_v14) (V c main_v10) (V c main_arg7) (V c main_v15) (V c main_arg9) (V c main_v16)
    p q ⟨win1_6.index t (0 : Fin 2) * 5000 + p.val, by omega⟩
    (fun l => blk0_0_read V c t p l _ rfl) (fun l => blk0_1_read V c t p l _ rfl)
    (blk0_2_read V c t) (blk0_3_read V c t) (blk0_4_read V c t) (blk0_5_read V c t)).trans ?_
  exact (congrArg (mlpArr (V c main_v14) (V c main_v10) (V c main_arg7) (V c main_v15) (V c main_arg9) (V c main_v16)) hi).symm

/-- An index of the output array is in point `t`'s block iff each coordinate is in the block's range on its axis. -/
theorem mem_blk0_6 (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v17).slice (win1_6.rect t)).set ↔ _
  rw [View.set_slice_whole, Rect.mem_set_unit]
  exact Iff.rfl

/-- The ten blocks cover the output array: row `r` is in the block of the point whose row block is `r / 5000`. -/
theorem cover1_6_arr (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  obtain ⟨t, ht⟩ := idx_onto0 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk0_6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- The second layer's region: whatever its arrays hold at entry (`V`), its output array ends holding the layer's
    dense part of the entry contents of its six input arrays, index by index. -/
theorem arr1 (c : Dev nD) : (dat1 (F := Ideal) V c).arrAt 6 cfg1.N
    = mlpArr (V c main_v14) (V c main_v10) (V c main_arg7) (V c main_v15) (V c main_arg9) (V c main_v16) := by
  exact (dat1 (F := Ideal) V c).arrAt_eq_of_cover 6 _ (fun t _ => flushed0_6_eq V c t) cover1_6_arr

end Cert.Gin.K.Layer1

end
-- ==== Proof.Region2.lean ====
import proofs.«415730_j77171972374916_1_alg».proof.Proof.Gen.KernelIdeal.Frame
import proofs.«415730_j77171972374916_1_alg».proof.Proof.Spec
import proofs.«415730_j77171972374916_1_alg».proof.Proof.MlpPay
import Idealize.ShloMosaic.Lib.Pipeline.Value
import Idealize.ShloMosaic.Lib.ValueIdx

set_option maxRecDepth 16384

noncomputable section

open Idealize.ShloMosaic Idealize.ShloMosaic.TcCoe Idealize.SL.Sem

namespace Cert.Gin.K.Layer2

open Cert.KernelIdeal Cert.KernelIdeal.Gen Idealize.ShloMosaic.ValueIdx

variable (V : (c : Dev nD) → (b : Ref sig .tc) → Buf (Elt Ideal) ((c : Thread nD τ).loc b))

/-- The zero offsets of a whole-block access, as the constant function. -/
theorem zero_offsets0 : (![0, 0] : Fin 2 → Nat) = fun _ => 0 := funext fun a => by fin_cases a <;> rfl

/-- One element of a block of the layer's dense part: when row `p` of the two 5000-row blocks is row `r` of the two
    50000-row arrays, and the weight and bias blocks are the whole weight and bias arrays, the block's element at
    `(p, q)` is the array's element at `(r, q)`. -/
theorem mlp_point0 (x0 x1 : Vec Ideal S5000x64 .f32) (x2 : Vec Ideal S64x64 .f32) (x3 : Vec Ideal S1x64 .f32)
    (x4 : Vec Ideal S64x64 .f32) (x5 : Vec Ideal S1x64 .f32)
    (agg x : FVec Ideal S50000x64 .f32) (wa : FVec Ideal S64x64 .f32) (ba : FVec Ideal S1x64 .f32)
    (wb : FVec Ideal S64x64 .f32) (bb : FVec Ideal S1x64 .f32)
    (p : Fin 5000) (q : Fin 64) (r : Fin 50000)
    (h0 : ∀ l : Fin 64, x0 (ix2 p l) = agg (ix2 r l))
    (h1 : ∀ l : Fin 64, x1 (ix2 p l) = x (ix2 r l))
    (h2 : x2 = wa) (h3 : x3 = ba) (h4 : x4 = wb) (h5 : x5 = bb) :
    k2_pay1 (F := Ideal) x0 x1 x2 x3 x4 x5 (ix2 p q) = mlpArr agg x wa ba wb bb (ix2 r q) := by
  rw [k2_pay1_apply]
  subst h2 h3 h4 h5
  simp only [h0, h1]
  rfl

/-- The printed index maps, decided over the ten points: the two row-blocked inputs move with the output along the rows
    and stay at column block 0; the weights and biases stay at block (0, 0); the output's row block is at most 9. -/
theorem idx_facts0 : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) ≤ 9 ∧ win2_6.index t (1 : Fin 2) = 0 :=
  (by decide +kernel : ∀ t : Fin grid2.N, _)

/-- Every row block 0 … 9 of the output is some point's. -/
theorem idx_onto0 : ∀ b : Fin 10, ∃ t : Fin cfg2.N, win2_6.index t = ![b.val, 0] :=
  (by decide +kernel : ∀ b : Fin 10, ∃ t : Fin grid2.N, win2_6.index t = ![b.val, 0])

/-- A row-blocked input's block at point `t`, row `p`, column `l`, is the array's row `r` when `r` is the row the
    output's block puts `p` at: input 0 (the neighbour sums). -/
theorem blk0_0_read (c : Dev nD) (t : Fin cfg2.N) (p : Fin 5000) (l : Fin 64) (r : Fin 50000)
    (hr : r.val = win2_6.index t (0 : Fin 2) * 5000 + p.val) :
    (iblk2 (F := Ideal) V c 0 t : Vec Ideal S5000x64 .f32) (ix2 p l) = (V c main_v21 : FVec Ideal S50000x64 .f32) (ix2 r l) := by
  obtain ⟨e00, e01, -⟩ := idx_facts0 t
  unfold iblk2
  rw [View.read_apply]
  show V c main_v21 _ = V c main_v21 _
  congr 1
  funext a
  apply Fin.ext
  match a with
  | ⟨0, _⟩ => show win2_0.index t (0 : Fin 2) * 5000 + 1 * p.val = r.val; omega
  | ⟨1, _⟩ => show win2_0.index t (1 : Fin 2) * 64 + 1 * l.val = l.val; omega

/-- The same for input 1 (the features). -/
theorem blk0_1_read (c : Dev nD) (t : Fin cfg2.N) (p : Fin 5000) (l : Fin 64) (r : Fin 50000)
    (hr : r.val = win2_6.index t (0 : Fin 2) * 5000 + p.val) :
    (iblk2 (F := Ideal) V c 1 t : Vec Ideal S5000x64 .f32) (ix2 p l) = (V c main_v17 : FVec Ideal S50000x64 .f32) (ix2 r l) := by
  obtain ⟨-, -, e10, e11, -⟩ := idx_facts0 t
  unfold iblk2
  rw [View.read_apply]
  show V c main_v17 _ = V c main_v17 _
  congr 1
  funext a
  apply Fin.ext
  match a with
  | ⟨0, _⟩ => show win2_1.index t (0 : Fin 2) * 5000 + 1 * p.val = r.val; omega
  | ⟨1, _⟩ => show win2_1.index t (1 : Fin 2) * 64 + 1 * l.val = l.val; omega

/-- A whole-array input's block at any point is the array: the first weight, -/
theorem blk0_2_read (c : Dev nD) (t : Fin cfg2.N) :
    (iblk2 (F := Ideal) V c 2 t : Vec Ideal S64x64 .f32) = (V c main_arg11 : FVec Ideal S64x64 .f32) := by
  obtain ⟨-, -, -, -, e20, e21, -⟩ := idx_facts0 t
  funext y
  unfold iblk2
  rw [View.read_apply]
  show V c main_arg11 _ = V c main_arg11 _
  congr 1
  funext a
  apply Fin.ext
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- the first bias row, -/
theorem blk0_3_read (c : Dev nD) (t : Fin cfg2.N) :
    (iblk2 (F := Ideal) V c 3 t : Vec Ideal S1x64 .f32) = (V c main_v22 : FVec Ideal S1x64 .f32) := by
  obtain ⟨-, -, -, -, -, -, e30, e31, -⟩ := idx_facts0 t
  funext y
  unfold iblk2
  rw [View.read_apply]
  show V c main_v22 _ = V c main_v22 _
  congr 1
  funext a
  apply Fin.ext
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- the second weight, -/
theorem blk0_4_read (c : Dev nD) (t : Fin cfg2.N) :
    (iblk2 (F := Ideal) V c 4 t : Vec Ideal S64x64 .f32) = (V c main_arg13 : FVec Ideal S64x64 .f32) := by
  obtain ⟨-, -, -, -, -, -, -, -, e40, e41, -⟩ := idx_facts0 t
  funext y
  unfold iblk2
  rw [View.read_apply]
  show V c main_arg13 _ = V c main_arg13 _
  congr 1
  funext a
  apply Fin.ext
  match a with
  | ⟨0, _⟩ => show win2_4.index t (0 : Fin 2) * 64 + 1 * (y 0).val = (y 0).val; omega
  | ⟨1, _⟩ => show win2_4.index t (1 : Fin 2) * 64 + 1 * (y 1).val = (y 1).val; omega

/-- and the second bias row. -/
theorem blk0_5_read (c : Dev nD) (t : Fin cfg2.N) :
    (iblk2 (F := Ideal) V c 5 t : Vec Ideal S1x64 .f32) = (V c main_v23 : FVec Ideal S1x64 .f32) := by
  obtain ⟨-, -, -, -, -, -, -, -, -, -, e50, e51, -⟩ := idx_facts0 t
  funext y
  unfold iblk2
  rw [View.read_apply]
  show V c main_v23 _ = V c main_v23 _
  congr 1
  funext a
  apply Fin.ext
  match a with
  | ⟨0, _⟩ => show win2_5.index t (0 : Fin 2) * 1 + 1 * (y 0).val = (y 0).val; omega
  | ⟨1, _⟩ => show win2_5.index t (1 : Fin 2) * 64 + 1 * (y 1).val = (y 1).val; omega

/-- What point `t` writes back is block `t` of the layer's dense part of the arrays as the region finds them: the body's one
    whole-block store leaves its payload of the six input blocks, and each element of that payload is the dense part at
    the array index the output's block puts it at. -/
theorem flushed0_6_eq (c : Dev nD) (t : Fin cfg2.N) :
    (dat2 (F := Ideal) V c).flushed 6 t
      = ((cfg2.win 6).blk t).view.read (Elt Ideal) (mlpArr (V c main_v21) (V c main_v17) (V c main_arg11) (V c main_v22) (V c main_arg13) (V c main_v23)) := by
  show (cfg2.win 6).cut (grid2.coords t) ((dat2 (F := Ideal) V c).after 6 t) = _
  rw [after2_6]
  unfold out2_6
  rw [View.canon_unit_zero zero_offsets0]
  simp only [View.ld_unit_zero (S := S5000x64) zero_offsets0, View.ld_unit_zero (S := S64x64) zero_offsets0,
    View.ld_unit_zero (S := S1x64) zero_offsets0]
  obtain ⟨-, -, -, -, -, -, -, -, -, -, -, -, e60, e61⟩ := idx_facts0 t
  funext j
  obtain ⟨p, q, rfl⟩ : ∃ (p : Fin 5000) (q : Fin 64), j = ix2 p q := ⟨j 0, j 1, eq_ix2 j⟩
  have hp : p.val < 5000 := p.isLt
  have hi : ((cfg2.win 6).blk t).view.emb (ix2 p q)
      = (ix2 (⟨win2_6.index t (0 : Fin 2) * 5000 + p.val, by omega⟩ : Fin 50000) q : S50000x64.Idx) := by
    funext a
    apply Fin.ext
    match a with
    | ⟨0, _⟩ => show win2_6.index t (0 : Fin 2) * 5000 + 1 * p.val = win2_6.index t (0 : Fin 2) * 5000 + p.val; omega
    | ⟨1, _⟩ => show win2_6.index t (1 : Fin 2) * 64 + 1 * q.val = q.val; omega
  rw [View.read_apply]
  refine (mlp_point0 _ _ _ _ _ _ (V c main_v21) (V c main_v17) (V c main_arg11) (V c main_v22) (V c main_arg13) (V c main_v23)
    p q ⟨win2_6.index t (0 : Fin 2) * 5000 + p.val, by omega⟩
    (fun l => blk0_0_read V c t p l _ rfl) (fun l => blk0_1_read V c t p l _ rfl)
    (blk0_2_read V c t) (blk0_3_read V c t) (blk0_4_read V c t) (blk0_5_read V c t)).trans ?_
  exact (congrArg (mlpArr (V c main_v21) (V c main_v17) (V c main_arg11) (V c main_v22) (V c main_arg13) (V c main_v23)) hi).symm

/-- An index of the output array is in point `t`'s block iff each coordinate is in the block's range on its axis. -/
theorem mem_blk0_6 (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v24).slice (win2_6.rect t)).set ↔ _
  rw [View.set_slice_whole, Rect.mem_set_unit]
  exact Iff.rfl

/-- The ten blocks cover the output array: row `r` is in the block of the point whose row block is `r / 5000`. -/
theorem cover2_6_arr (i : S50000x64.Idx) :
    ∃ t : Fin cfg2.N, (cfg2.win 6).flush t = true ∧ i ∈ ((cfg2.win 6).blk t).view.set := by
  have hi0 : (i 0).val < 50000 := (i 0).isLt
  have hi1 : (i 1).val < 64 := (i 1).isLt
  obtain ⟨t, ht⟩ := idx_onto0 ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk0_6]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

/-- The third layer's region: whatever its arrays hold at entry (`V`), its output array ends holding the layer's
    dense part of the entry contents of its six input arrays, index by index. -/
theorem arr2 (c : Dev nD) : (dat2 (F := Ideal) V c).arrAt 6 cfg2.N
    = mlpArr (V c main_v21) (V c main_v17) (V c main_arg11) (V c main_v22) (V c main_arg13) (V c main_v23) := by
  exact (dat2 (F := Ideal) V c).arrAt_eq_of_cover 6 _ (fun t _ => flushed0_6_eq V c t) cover2_6_arr

end Cert.Gin.K.Layer2

end
-- ==== Proof.Region3.lean ====
import proofs.«415730_j77171972374916_1_alg».proof.Proof.Gen.KernelIdeal.Frame
import proofs.«415730_j77171972374916_1_alg».proof.Proof.Spec
import proofs.«415730_j77171972374916_1_alg».proof.Proof.MlpPay
import Idealize.ShloMosaic.Lib.Pipeline.Value
import Idealize.ShloMosaic.Lib.ValueIdx

set_option maxRecDepth 16384

noncomputable section

open Idealize.ShloMosaic Idealize.ShloMosaic.TcCoe Idealize.SL.Sem

namespace Cert.Gin.K

open Cert.KernelIdeal Cert.KernelIdeal.Gen Idealize.ShloMosaic.ValueIdx

variable (V : (c : Dev nD) → (b : Ref sig .tc) → Buf (Elt Ideal) ((c : Thread nD τ).loc b))

/-! ## The head's region: one grid point, every window the whole of its array -/

/-- The offsets of the body's three loads and of its one store are all zero. -/
theorem head_off_zero : (![0, 0] : Fin 2 → Nat) = fun _ => 0 := funext fun a => by fin_cases a <;> rfl

/-- The head's payload at any index `j` of its 512 × 1 block: row `j 0` of the first operand times column `j 1` of the
    second, plus the one entry of the third. -/
theorem head_pay_at (x0 : Vec Ideal S512x64 .f32) (x1 : Vec Ideal S64x1 .f32) (x2 : Vec Ideal S1x1 .f32) (j : S512x1.Idx) :
    k3_pay1 (F := Ideal) x0 x1 x2 j
      = (∑ k : Fin 64, x0 (ix2 (j 0) k) * x1 (ix2 k (j 1))) + x2 (ix2 (0 : Fin 1) (0 : Fin 1)) := by
  exact (congrArg (k3_pay1 (F := Ideal) x0 x1 x2) (eq_ix2 j)).trans (k3_pay1_apply x0 x1 x2 (j 0) (j 1))

/-- The printed index maps, decided over the grid: at the one point every window's block index is (0, 0). -/
theorem head_index_zero : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- Block (0, 0) of the pooled features is the whole 512 × 64 array: an index of the block is the same index of the
    array (a block's coordinate is its block index times the block's extent plus the coordinate inside the block). -/
theorem head_emb_pooled (t : Fin cfg3.N) (y : S512x64.Idx) : ((cfg3.win 0).blk t).view.emb y = y := by
  obtain ⟨e0, e1, -⟩ := head_index_zero t
  funext a; apply Fin.ext
  match a with
  | ⟨0, _⟩ => show win3_0.index t (0 : Fin 2) * 512 + 1 * (y 0).val = (y 0).val; omega
  | ⟨1, _⟩ => show win3_0.index t (1 : Fin 2) * 64 + 1 * (y 1).val = (y 1).val; omega

/-- Block (0, 0) of the weight column is the whole 64 × 1 array. -/
theorem head_emb_weight (t : Fin cfg3.N) (y : S64x1.Idx) : ((cfg3.win 1).blk t).view.emb y = y := by
  obtain ⟨-, -, e0, e1, -⟩ := head_index_zero t
  funext a; apply Fin.ext
  match a with
  | ⟨0, _⟩ => show win3_1.index t (0 : Fin 2) * 64 + 1 * (y 0).val = (y 0).val; omega
  | ⟨1, _⟩ => show win3_1.index t (1 : Fin 2) * 1 + 1 * (y 1).val = (y 1).val; omega

/-- Block (0, 0) of the bias is the whole 1 × 1 array. -/
theorem head_emb_bias (t : Fin cfg3.N) (y : S1x1.Idx) : ((cfg3.win 2).blk t).view.emb y = y := by
  obtain ⟨-, -, -, -, e0, e1, -⟩ := head_index_zero t
  funext a; apply Fin.ext
  match a with
  | ⟨0, _⟩ => show win3_2.index t (0 : Fin 2) * 1 + 1 * (y 0).val = (y 0).val; omega
  | ⟨1, _⟩ => show win3_2.index t (1 : Fin 2) * 1 + 1 * (y 1).val = (y 1).val; omega

/-- Block (0, 0) of the output is the whole 512 × 1 array. -/
theorem head_emb_out (t : Fin cfg3.N) (y : S512x1.Idx) : ((cfg3.win 3).blk t).view.emb y = y := by
  obtain ⟨-, -, -, -, -, -, e0, e1⟩ := head_index_zero t
  funext a; apply Fin.ext
  match a with
  | ⟨0, _⟩ => show win3_3.index t (0 : Fin 2) * 512 + 1 * (y 0).val = (y 0).val; omega
  | ⟨1, _⟩ => show win3_3.index t (1 : Fin 2) * 1 + 1 * (y 1).val = (y 1).val; omega

/-- So each input window's block, at any of its indices, is its array's entry at the same index. -/
theorem head_blk_pooled (c : Dev nD) (t : Fin cfg3.N) (y : S512x64.Idx) : iblk3 (F := Ideal) V c 0 t y = V c main_v36 y := by
  show V c main_v36 (((cfg3.win 0).blk t).view.emb y) = _
  rw [head_emb_pooled]
theorem head_blk_weight (c : Dev nD) (t : Fin cfg3.N) (y : S64x1.Idx) : iblk3 (F := Ideal) V c 1 t y = V c main_arg15 y := by
  show V c main_arg15 (((cfg3.win 1).blk t).view.emb y) = _
  rw [head_emb_weight]
theorem head_blk_bias (c : Dev nD) (t : Fin cfg3.N) (y : S1x1.Idx) : iblk3 (F := Ideal) V c 2 t y = V c main_v37 y := by
  show V c main_v37 (((cfg3.win 2).blk t).view.emb y) = _
  rw [head_emb_bias]

/-- WHAT THE ONE POINT WRITES BACK is the whole of `poolArr` of the arrays as the region finds them: the body's one
    store leaves its payload, the payload at an index is a row of the first block times the second block's column plus
    the third block's entry, and each block is its whole array. -/
theorem head_flushed (c : Dev nD) (t : Fin cfg3.N) :
    (dat3 (F := Ideal) V c).flushed 3 t
      = ((cfg3.win 3).blk t).view.read (Elt Ideal) (poolArr (V c main_v36) (V c main_arg15) (V c main_v37)) := by
  show (cfg3.win 3).cut (grid3.coords t) ((dat3 (F := Ideal) V c).after 3 t) = _
  rw [after3_3]
  unfold out3_3
  rw [View.canon_unit_zero head_off_zero]
  simp only [View.ld_unit_zero (S := S512x64) head_off_zero, View.ld_unit_zero (S := S64x1) head_off_zero,
    View.ld_unit_zero (S := S1x1) head_off_zero]
  funext j
  show k3_pay1 (F := Ideal) (iblk3 V c 0 t) (iblk3 V c 1 t) (iblk3 V c 2 t) j
    = poolArr (V c main_v36) (V c main_arg15) (V c main_v37) (((cfg3.win 3).blk t).view.emb j)
  rw [head_pay_at, head_emb_out]
  simp only [head_blk_pooled, head_blk_weight, head_blk_bias]
  -- what is left is the definition of `poolArr` at `j`
  rfl

/-- An index of the output array is in the one point's block iff each coordinate is in the block's range on its axis. -/
theorem head_mem_blk (t : Fin cfg3.N) (i : S512x1.Idx) :
    i ∈ ((cfg3.win 3).blk t).view.set ↔ ∀ a : Fin 2, win3_3.index t a * S512x1.size a ≤ (i a).val ∧ (i a).val < win3_3.index t a * S512x1.size a + S512x1.size a := by
  show i ∈ ((View.whole main_v38).slice (win3_3.rect t)).set ↔ _
  rw [View.set_slice_whole, Rect.mem_set_unit]
  exact Iff.rfl

/-- The one point's block, rows 0 to 511 and column 0, holds every index of the output array. -/
theorem head_cover (i : S512x1.Idx) : ∃ t : Fin cfg3.N, (cfg3.win 3).flush t = true ∧ i ∈ ((cfg3.win 3).blk t).view.set := by
  refine ⟨t3_0, flush3_3 t3_0, ?_⟩
  rw [head_mem_blk]
  obtain ⟨-, -, -, -, -, -, e0, e1⟩ := head_index_zero t3_0
  have hi0 : (i 0).val < 512 := (i 0).isLt
  have hi1 : (i 1).val < 1 := (i 1).isLt
  intro a
  match a with
  | ⟨0, _⟩ => show win3_3.index t3_0 (0 : Fin 2) * 512 ≤ (i 0).val ∧ (i 0).val < win3_3.index t3_0 (0 : Fin 2) * 512 + 512; omega
  | ⟨1, _⟩ => show win3_3.index t3_0 (1 : Fin 2) * 1 ≤ (i 1).val ∧ (i 1).val < win3_3.index t3_0 (1 : Fin 2) * 1 + 1; omega

/-- The head's region: whatever its arrays hold at entry (`V`), its output array ends holding the pooled features
    times the weight column plus the bias, index by index. -/
theorem arr3 (c : Dev nD) : (dat3 (F := Ideal) V c).arrAt 3 cfg3.N
    = poolArr (V c main_v36) (V c main_arg15) (V c main_v37) := by
  -- the one point's block is all of `poolArr` and covers the array, so the array ends holding it
  exact (dat3 (F := Ideal) V c).arrAt_eq_of_cover 3 (poolArr (V c main_v36) (V c main_arg15) (V c main_v37))
    (fun t _ => head_flushed V c t) head_cover

end Cert.Gin.K

end
-- ==== Proof.HostK01.lean ====
/-
  What the two first regions of the kernel's program find in their input arrays.

  Between the launch and region 0 the program's host operations cut the edge list into its two rows (the source and the
  destination node of every edge), gather the rows `x[src]` (a row whose index is out of range replaced by NaN), add the
  gathered rows into their destination rows, and reshape two biases into 1 × 64 rows. Between region 0 and region 1 they do
  the same over region 0's output, with the same two rows of the edge list. Each statement below reads one input array of a
  region at the region's entry as the function of `Spec.lean` (`aggK`, or a reshape) of the launch memory and, for region 1,
  of region 0's exit contents.

  The reading has two ingredients, kept apart: what a stretch of operations WRITES, as a function of the contents the stretch
  starts from (any contents `V`: the operations composed, nothing evaluated), and what a stretch leaves ALONE (a buffer that
  is not among the ones its operations write holds what it held).
-/
import proofs.«415730_j77171972374916_1_alg».proof.Proof.Gen.KernelIdeal.Frame
import proofs.«415730_j77171972374916_1_alg».proof.Proof.Spec
import Idealize.ShloMosaic.Lib.StableHlo.Run

set_option maxRecDepth 16384

noncomputable section

open Idealize.ShloMosaic Idealize.ShloMosaic.TcCoe Idealize.SL.Sem

namespace Cert.Gin.K

open Cert.KernelIdeal Cert.KernelIdeal.Gen Cert.KernelIdeal.Facts₀ Cert.KernelIdeal.Facts Idealize.ShloMosaic.StableHlo

namespace H01

/-! ## Typed references

The gather's operations name their buffers by references that carry the type of the value they hold, and move contents to
and from a buffer along the equation between the two types. Moving there and back is the identity; and at a literal
reference, whose type is the value's by computation, each single move is the identity too. -/

theorem ofBuf_toBuf {sg : RefSig} {T : BufTy} {Val : EltTy → Type} (x : TRef sg T) (v : T.Contents Val) :
    x.ofBuf (x.toBuf v) = v := by
  unfold TRef.ofBuf TRef.toBuf
  rw [cast_cast]
  exact cast_eq _ _

theorem toBuf_v4 (h q u) (v : (⟨S800000x64, .f32⟩ : BufTy).Contents (Elt Ideal)) :
    (TRef.of (sig := sig) (T := ⟨S800000x64, .f32⟩) main_v4 h q u).toBuf v = v := eq_of_heq (cast_heq _ _)
theorem toBuf_v11 (h q u) (v : (⟨S800000x64, .f32⟩ : BufTy).Contents (Elt Ideal)) :
    (TRef.of (sig := sig) (T := ⟨S800000x64, .f32⟩) main_v11 h q u).toBuf v = v := eq_of_heq (cast_heq _ _)
theorem ofBuf_v1 (h q u) (v : (⟨S800000, .i32⟩ : BufTy).Contents (Elt Ideal)) :
    (TRef.of (sig := sig) (T := ⟨S800000, .i32⟩) main_v1 h q u).ofBuf v = v := eq_of_heq (cast_heq _ _)
theorem ofBuf_arg0 (h q u) (v : (⟨S50000x64, .f32⟩ : BufTy).Contents (Elt Ideal)) :
    (TRef.of (sig := sig) (T := ⟨S50000x64, .f32⟩) main_arg0 h q u).ofBuf v = v := eq_of_heq (cast_heq _ _)
theorem ofBuf_v10 (h q u) (v : (⟨S50000x64, .f32⟩ : BufTy).Contents (Elt Ideal)) :
    (TRef.of (sig := sig) (T := ⟨S50000x64, .f32⟩) main_v10 h q u).ofBuf v = v := eq_of_heq (cast_heq _ _)

/-! ## What each stretch writes, from any contents `V` -/

section Writes

variable (V : Valuation τ sig (Elt Ideal))

/-- The first stretch leaves row 0 of the edge list (the sources) in `main_v1`. -/
theorem edges_src : (StableHlo.after hostOps0 V (Proc.devRef .tc main_v1) : IVec S800000 32) = src (V (Proc.devRef .tc main_arg1)) := by
  simp only [hostOps0]
  after_results_simp
  rfl

/-- The first stretch leaves row 1 of the edge list (the destinations) in `main_v3`. -/
theorem edges_dst : (StableHlo.after hostOps0 V (Proc.devRef .tc main_v3) : IVec S800000 32) = dst (V (Proc.devRef .tc main_arg1)) := by
  simp only [hostOps0]
  after_results_simp
  rfl

/-- The first gather: the rows of `main_arg0` at the sources held in `main_v1`, out-of-range rows NaN. -/
theorem take0 : (StableHlo.after hostOps0_1 V (Proc.devRef .tc main_v4) : FVec Ideal S800000x64 .f32)
    = takeK (V (Proc.devRef .tc main_arg0)) (nidx (V (Proc.devRef .tc main_v1))) := by
  simp only [hostOps0_1]
  after_results_simp
  simp only [ofBuf_toBuf, toBuf_v4, ofBuf_v1, ofBuf_arg0]
  rfl

/-- The second gather: the rows of `main_v10` (region 0's output) at the sources held in `main_v1`. -/
theorem take1 : (StableHlo.after hostOps1 V (Proc.devRef .tc main_v11) : FVec Ideal S800000x64 .f32)
    = takeK (V (Proc.devRef .tc main_v10)) (nidx (V (Proc.devRef .tc main_v1))) := by
  simp only [hostOps1]
  after_results_simp
  simp only [ofBuf_toBuf, toBuf_v11, ofBuf_v1, ofBuf_v10]
  rfl

/-- The first scatter-add: the gathered rows `main_v4` added into the rows the destinations `main_v3` name, from zero. -/
theorem scat0 : (StableHlo.after hostOps0_2 V (Proc.devRef .tc main_v7) : FVec Ideal S50000x64 .f32)
    = Host.scatterAdd scatter_S50000x64_S800000x1_S800000x64_1_0_0_1
        (broadcastInDim S50000x64 ![] Facts₀.bcast_S_S50000x64 (constant (F := Ideal) S_ .f32 0x00000000#32))
        (broadcastInDim S800000x1 ![0] Facts₀.bcast_S800000_S800000x1_0 (V (Proc.devRef .tc main_v3)))
        (V (Proc.devRef .tc main_v4)) := by
  simp only [hostOps0_2]
  after_results_simp

/-- The second scatter-add: the gathered rows `main_v11` added into the rows the destinations `main_v3` name, from zero. -/
theorem scat1 : (StableHlo.after hostOps1_1 V (Proc.devRef .tc main_v14) : FVec Ideal S50000x64 .f32)
    = Host.scatterAdd scatter_S50000x64_S800000x1_S800000x64_1_0_0_1
        (broadcastInDim S50000x64 ![] Facts₀.bcast_S_S50000x64 (constant (F := Ideal) S_ .f32 0x00000000#32))
        (broadcastInDim S800000x1 ![0] Facts₀.bcast_S800000_S800000x1_0 (V (Proc.devRef .tc main_v3)))
        (V (Proc.devRef .tc main_v11)) := by
  simp only [hostOps1_1]
  after_results_simp

/-- The biases of layer 0 as 1 × 64 rows. -/
theorem bias_v8 : (StableHlo.after hostOps0_2 V (Proc.devRef .tc main_v8) : FVec Ideal S1x64 .f32)
    = shapeCast _ (V (Proc.devRef .tc main_arg4)) Facts₀.shapeCasts_S64_S1x64 := by
  simp only [hostOps0_2]
  after_results_simp
  rfl
theorem bias_v9 : (StableHlo.after hostOps0_2 V (Proc.devRef .tc main_v9) : FVec Ideal S1x64 .f32)
    = shapeCast _ (V (Proc.devRef .tc main_arg6)) Facts₀.shapeCasts_S64_S1x64 := by
  simp only [hostOps0_2]
  after_results_simp
  rfl

/-- The biases of layer 1 as 1 × 64 rows. -/
theorem bias_v15 : (StableHlo.after hostOps1_1 V (Proc.devRef .tc main_v15) : FVec Ideal S1x64 .f32)
    = shapeCast _ (V (Proc.devRef .tc main_arg8)) Facts₀.shapeCasts_S64_S1x64 := by
  simp only [hostOps1_1]
  after_results_simp
  rfl
theorem bias_v16 : (StableHlo.after hostOps1_1 V (Proc.devRef .tc main_v16) : FVec Ideal S1x64 .f32)
    = shapeCast _ (V (Proc.devRef .tc main_arg10)) Facts₀.shapeCasts_S64_S1x64 := by
  simp only [hostOps1_1]
  after_results_simp
  rfl

end Writes

/-! ## What each stretch leaves alone

The references a stretch's operations write, listed; a reference outside the list keeps its contents through the stretch. -/

abbrev wr0 : List (Ref sig .tc) := [main_v0, main_v1, main_v2, main_v3]
abbrev wr0_1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
abbrev wr0_2 : List (Ref sig .tc) := [main_cst, main_v5, main_v6, main_v7, main_v8, main_v9]
abbrev wr1 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v11]
abbrev wr1_1 : List (Ref sig .tc) := [main_cst_0, main_v12, main_v13, main_v14, main_v15, main_v16]

/-- Every operation of the stretch writes one buffer, and it is in the list. -/
local macro "writes_in" ops:ident : tactic => `(tactic| (
  simp only [$ops:ident, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)))

theorem hostOps0_writes : (hostOps0 : List (HloOp τ sig (Elt Ideal))).Forall fun op => op.writes ⊆ (wr0.map (Proc.devRef (τ := τ) .tc)).toFinset := by
  writes_in hostOps0
theorem hostOps0_1_writes : (hostOps0_1 : List (HloOp τ sig (Elt Ideal))).Forall fun op => op.writes ⊆ (wr0_1.map (Proc.devRef (τ := τ) .tc)).toFinset := by
  writes_in hostOps0_1
theorem hostOps0_2_writes : (hostOps0_2 : List (HloOp τ sig (Elt Ideal))).Forall fun op => op.writes ⊆ (wr0_2.map (Proc.devRef (τ := τ) .tc)).toFinset := by
  writes_in hostOps0_2
theorem hostOps1_writes : (hostOps1 : List (HloOp τ sig (Elt Ideal))).Forall fun op => op.writes ⊆ (wr1.map (Proc.devRef (τ := τ) .tc)).toFinset := by
  writes_in hostOps1
theorem hostOps1_1_writes : (hostOps1_1 : List (HloOp τ sig (Elt Ideal))).Forall fun op => op.writes ⊆ (wr1_1.map (Proc.devRef (τ := τ) .tc)).toFinset := by
  writes_in hostOps1_1

variable (m : (ℓ : Loc nD τ sig) → Buf (Elt Ideal) ℓ) (ρ : Dev nD → PrngReg)

/-! ## The contents at each boundary up to region 0's entry -/

section Layer0

variable (c : Dev nD) (r : Ref sig .tc)

/-- A buffer none of the first stretches writes holds what it held at launch. -/
theorem W1_launch (h0 : r ∉ wr0) : W1 m ρ c (Proc.devRef .tc r) = m ((c : Thread nD τ).loc r) :=
  (StableHlo.after_of_writes_sub hostOps0 _ hostOps0_writes h0).trans rfl
theorem W2_launch (h0 : r ∉ wr0) (h1 : r ∉ wr0_1) : W2 m ρ c (Proc.devRef .tc r) = m ((c : Thread nD τ).loc r) :=
  (StableHlo.after_of_writes_sub hostOps0_1 _ hostOps0_1_writes h1).trans (W1_launch m ρ c r h0)
theorem W3_launch (h0 : r ∉ wr0) (h1 : r ∉ wr0_1) (h2 : r ∉ wr0_2) : W3 m ρ c (Proc.devRef .tc r) = m ((c : Thread nD τ).loc r) :=
  (StableHlo.after_of_writes_sub hostOps0_2 _ hostOps0_2_writes h2).trans (W2_launch m ρ c r h0 h1)

/-- The sources and the destinations, once written, stay: neither later stretch writes `main_v1` or `main_v3`. -/
theorem W1_v1 : (W1 m ρ c (Proc.devRef .tc main_v1) : IVec S800000 32) = src (m ((c : Thread nD τ).loc main_arg1)) :=
  edges_src (W0 m ρ c)
theorem W1_v3 : (W1 m ρ c (Proc.devRef .tc main_v3) : IVec S800000 32) = dst (m ((c : Thread nD τ).loc main_arg1)) :=
  edges_dst (W0 m ρ c)
theorem W2_v3 : (W2 m ρ c (Proc.devRef .tc main_v3) : IVec S800000 32) = dst (m ((c : Thread nD τ).loc main_arg1)) :=
  (StableHlo.after_of_writes_sub hostOps0_1 _ hostOps0_1_writes (by decide)).trans (W1_v3 m ρ c)
theorem W3_v1 : (W3 m ρ c (Proc.devRef .tc main_v1) : IVec S800000 32) = src (m ((c : Thread nD τ).loc main_arg1)) :=
  (StableHlo.after_of_writes_sub hostOps0_2 _ hostOps0_2_writes (by decide)).trans
    ((StableHlo.after_of_writes_sub hostOps0_1 _ hostOps0_1_writes (by decide)).trans (W1_v1 m ρ c))
theorem W3_v3 : (W3 m ρ c (Proc.devRef .tc main_v3) : IVec S800000 32) = dst (m ((c : Thread nD τ).loc main_arg1)) :=
  (StableHlo.after_of_writes_sub hostOps0_2 _ hostOps0_2_writes (by decide)).trans (W2_v3 m ρ c)

/-- The gathered rows after the second stretch: `x[src]` over the launch memory. -/
theorem W2_v4 : (W2 m ρ c (Proc.devRef .tc main_v4) : FVec Ideal S800000x64 .f32)
    = takeK (m ((c : Thread nD τ).loc main_arg0)) (nidx (src (m ((c : Thread nD τ).loc main_arg1)))) := by
  show StableHlo.after hostOps0_1 (W1 m ρ c) (Proc.devRef .tc main_v4) = _
  rw [take0, W1_v1 m ρ c, W1_launch m ρ c main_arg0 (by decide)]

end Layer0

/-! ## The contents at each boundary from region 0's exit to region 1's entry

Region 0 writes its output array `main_v10` only: every other buffer leaves it as it entered. -/

section Layer1

variable (c : Dev nD) (r : Ref sig .tc)

/-- A buffer that is no array of region 0 and that no stretch so far writes holds at region 1's entry what it held at launch. -/
theorem W5_launch (h : ∀ w, Pipeline.arrRef spec0 w ≠ r) (h0 : r ∉ wr0) (h1 : r ∉ wr0_1) (h2 : r ∉ wr0_2) (h3 : r ∉ wr1) :
    W5 m ρ c (Proc.devRef .tc r) = m ((c : Thread nD τ).loc r) :=
  (StableHlo.after_of_writes_sub hostOps1 _ hostOps1_writes h3).trans
    ((W4_of_ne m ρ c r h).trans (W3_launch m ρ c r h0 h1 h2))

theorem W4_v1 : (W4 m ρ c (Proc.devRef .tc main_v1) : IVec S800000 32) = src (m ((c : Thread nD τ).loc main_arg1)) :=
  (W4_of_ne m ρ c main_v1 (by decide)).trans (W3_v1 m ρ c)
theorem W5_v3 : (W5 m ρ c (Proc.devRef .tc main_v3) : IVec S800000 32) = dst (m ((c : Thread nD τ).loc main_arg1)) :=
  (StableHlo.after_of_writes_sub hostOps1 _ hostOps1_writes (by decide)).trans
    ((W4_of_ne m ρ c main_v3 (by decide)).trans (W3_v3 m ρ c))

/-- The gathered rows after region 0: `y[src]` over region 0's output `y`. -/
theorem W5_v11 : (W5 m ρ c (Proc.devRef .tc main_v11) : FVec Ideal S800000x64 .f32)
    = takeK (V4 m ρ c main_v10) (nidx (src (m ((c : Thread nD τ).loc main_arg1)))) := by
  show StableHlo.after hostOps1 (W4 m ρ c) (Proc.devRef .tc main_v11) = _
  rw [take1, W4_v1 m ρ c]

end Layer1

end H01

open H01

variable (m : (ℓ : Loc nD τ sig) → Buf (Elt Ideal) ℓ) (ρ : Dev nD → PrngReg)

/-! ## Region 0's entry contents (after the first three host stretches) -/
theorem V3_v7 (c : Dev nD) : V3 m ρ c main_v7 = aggK (m ((c : Thread nD τ).loc main_arg0)) (m ((c : Thread nD τ).loc main_arg1)) := by
  show StableHlo.after hostOps0_2 (W2 m ρ c) (Proc.devRef .tc main_v7) = _
  rw [scat0, W2_v3 m ρ c, W2_v4 m ρ c]
  rfl
theorem V3_arg0 (c : Dev nD) : V3 m ρ c main_arg0 = m ((c : Thread nD τ).loc main_arg0) :=
  W3_launch m ρ c main_arg0 (by decide) (by decide) (by decide)
theorem V3_arg3 (c : Dev nD) : V3 m ρ c main_arg3 = m ((c : Thread nD τ).loc main_arg3) :=
  W3_launch m ρ c main_arg3 (by decide) (by decide) (by decide)
theorem V3_v8 (c : Dev nD) : V3 m ρ c main_v8 = shapeCast _ (m ((c : Thread nD τ).loc main_arg4)) Facts₀.shapeCasts_S64_S1x64 := by
  show StableHlo.after hostOps0_2 (W2 m ρ c) (Proc.devRef .tc main_v8) = _
  rw [bias_v8, W2_launch m ρ c main_arg4 (by decide) (by decide)]
theorem V3_arg5 (c : Dev nD) : V3 m ρ c main_arg5 = m ((c : Thread nD τ).loc main_arg5) :=
  W3_launch m ρ c main_arg5 (by decide) (by decide) (by decide)
theorem V3_v9 (c : Dev nD) : V3 m ρ c main_v9 = shapeCast _ (m ((c : Thread nD τ).loc main_arg6)) Facts₀.shapeCasts_S64_S1x64 := by
  show StableHlo.after hostOps0_2 (W2 m ρ c) (Proc.devRef .tc main_v9) = _
  rw [bias_v9, W2_launch m ρ c main_arg6 (by decide) (by decide)]

/-! ## Region 1's entry contents, over region 0's exit contents -/
theorem V6_v14 (c : Dev nD) : V6 m ρ c main_v14 = aggK (V4 m ρ c main_v10) (m ((c : Thread nD τ).loc main_arg1)) := by
  show StableHlo.after hostOps1_1 (W5 m ρ c) (Proc.devRef .tc main_v14) = _
  rw [scat1, W5_v3 m ρ c, W5_v11 m ρ c]
  rfl
theorem V6_v10 (c : Dev nD) : V6 m ρ c main_v10 = V4 m ρ c main_v10 :=
  (StableHlo.after_of_writes_sub hostOps1_1 _ hostOps1_1_writes (by decide)).trans
    (StableHlo.after_of_writes_sub hostOps1 _ hostOps1_writes (by decide))
theorem V6_arg7 (c : Dev nD) : V6 m ρ c main_arg7 = m ((c : Thread nD τ).loc main_arg7) :=
  (StableHlo.after_of_writes_sub hostOps1_1 _ hostOps1_1_writes (by decide)).trans
    (W5_launch m ρ c main_arg7 (by decide) (by decide) (by decide) (by decide) (by decide))
theorem V6_v15 (c : Dev nD) : V6 m ρ c main_v15 = shapeCast _ (m ((c : Thread nD τ).loc main_arg8)) Facts₀.shapeCasts_S64_S1x64 := by
  show StableHlo.after hostOps1_1 (W5 m ρ c) (Proc.devRef .tc main_v15) = _
  rw [bias_v15, W5_launch m ρ c main_arg8 (by decide) (by decide) (by decide) (by decide) (by decide)]
theorem V6_arg9 (c : Dev nD) : V6 m ρ c main_arg9 = m ((c : Thread nD τ).loc main_arg9) :=
  (StableHlo.after_of_writes_sub hostOps1_1 _ hostOps1_1_writes (by decide)).trans
    (W5_launch m ρ c main_arg9 (by decide) (by decide) (by decide) (by decide) (by decide))
theorem V6_v16 (c : Dev nD) : V6 m ρ c main_v16 = shapeCast _ (m ((c : Thread nD τ).loc main_arg10)) Facts₀.shapeCasts_S64_S1x64 := by
  show StableHlo.after hostOps1_1 (W5 m ρ c) (Proc.devRef .tc main_v16) = _
  rw [bias_v16, W5_launch m ρ c main_arg10 (by decide) (by decide) (by decide) (by decide) (by decide)]

end Cert.Gin.K

end
-- ==== Proof.HostK23.lean ====
/-
  What regions 2 and 3 of the kernel's program find in their input arrays.

  Between region 1 and region 2 the host gathers region 1's output rows at the edges' source nodes (rows whose index is
  out of range replaced by NaN), adds them into their destination rows from zeros, and reshapes two bias vectors to
  rows; between region 2 and region 3 it pools region 2's output per graph (sums over node counts, the counts at least
  one) and reshapes the last bias.  Each statement below reads one input array of a region at its entry as the
  corresponding function of the shared vocabulary applied to the previous region's exit contents and to the launch
  memory.  The edge list's two rows are split off before the first region and never written again; an argument is never
  written at all.
-/
import proofs.«415730_j77171972374916_1_alg».proof.Proof.Gen.KernelIdeal.Frame
import proofs.«415730_j77171972374916_1_alg».proof.Proof.Spec

set_option maxRecDepth 16384

noncomputable section

open Idealize.ShloMosaic Idealize.ShloMosaic.TcCoe Idealize.SL.Sem

namespace Cert.Gin.K

open Cert.KernelIdeal Cert.KernelIdeal.Gen Cert.KernelIdeal.Facts₀ Cert.KernelIdeal.Facts

variable (m : (ℓ : Loc nD τ sig) → Buf (Elt Ideal) ℓ) (ρ : Dev nD → PrngReg)

/-- A buffer that no operation of the stretch writes keeps its contents through it: each operation writes one
    reference, and it is another one. -/
local macro "keeps " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

/-! ## Typed references

The gather's operations are stated over references that carry their tensor type; contents pass to the buffer's own
type and back along an equation of types that holds by computation, so both passages are the identity. -/

/-- Contents moved to a typed reference's buffer type and back are the contents. -/
private theorem ofBuf_toBuf {T : BufTy} (x : StableHlo.TRef sig T) (v : T.Contents (Elt Ideal)) :
    x.ofBuf (x.toBuf v) = v := by
  obtain ⟨r, h, _, _⟩ := x; subst h; rfl

private theorem toBuf_c5 (h1 h2 h3) (v : (⟨S800000x1, .i32⟩ : BufTy).Contents (Elt Ideal)) :
    (StableHlo.TRef.of (T := ⟨S800000x1, .i32⟩) main_call2_v5 h1 h2 h3).toBuf v = v := rfl
private theorem toBuf_c12 (h1 h2 h3) (v : (⟨S800000, .i1⟩ : BufTy).Contents (Elt Ideal)) :
    (StableHlo.TRef.of (T := ⟨S800000, .i1⟩) main_call2_v12 h1 h2 h3).toBuf v = v := rfl
private theorem toBuf_v18 (h1 h2 h3) (v : (⟨S800000x64, .f32⟩ : BufTy).Contents (Elt Ideal)) :
    (StableHlo.TRef.of (T := ⟨S800000x64, .f32⟩) main_v18 h1 h2 h3).toBuf v = v := rfl
private theorem ofBuf_v1 (h1 h2 h3) (u : main_v1.ty.Contents (Elt Ideal)) :
    (StableHlo.TRef.of (T := ⟨S800000, .i32⟩) main_v1 h1 h2 h3).ofBuf u = u := rfl
private theorem ofBuf_c5 (h1 h2 h3) (u : main_call2_v5.ty.Contents (Elt Ideal)) :
    (StableHlo.TRef.of (T := ⟨S800000x1, .i32⟩) main_call2_v5 h1 h2 h3).ofBuf u = u := rfl
private theorem ofBuf_c12 (h1 h2 h3) (u : main_call2_v12.ty.Contents (Elt Ideal)) :
    (StableHlo.TRef.of (T := ⟨S800000, .i1⟩) main_call2_v12 h1 h2 h3).ofBuf u = u := rfl
private theorem ofBuf_v17 (h1 h2 h3) (u : main_v17.ty.Contents (Elt Ideal)) :
    (StableHlo.TRef.of (T := ⟨S50000x64, .f32⟩) main_v17 h1 h2 h3).ofBuf u = u := rfl

/-! ## The gather of the rows at the source nodes, in three steps

The stretch before region 2's scatter is the gather `x[src]` with out-of-range rows filled: its first eight operations
make the index column (a negative index counted from the end), the next ten the mask of the indices inside
`[0, 49999]`, the last five gather the rows and fill the masked-out ones. Each step is read over arbitrary contents
`V`; the buffers a later step reads are untouched by the steps between. -/

section Take

variable (V : Valuation τ sig (Elt Ideal))

private theorem take_idx :
    StableHlo.after (hostOps2.take 8) V (Proc.devRef .tc main_call2_v5) = nidx (V (Proc.devRef .tc main_v1)) := by
  dsimp only [hostOps2, List.take]; after_results
  simp only [ofBuf_toBuf, toBuf_c5, ofBuf_v1]; rfl

private theorem take_idx_x :
    StableHlo.after (hostOps2.take 8) V (Proc.devRef .tc main_v17) = V (Proc.devRef .tc main_v17) := by
  dsimp only [hostOps2, List.take]; after_results

private theorem take_rng :
    StableHlo.after ((hostOps2.take 18).drop 8) V (Proc.devRef .tc main_call2_v12)
      = inRange (V (Proc.devRef .tc main_call2_v5)) := by
  dsimp only [hostOps2, List.take, List.drop]; after_results
  simp only [ofBuf_toBuf, toBuf_c12, ofBuf_c5]; rfl

private theorem take_rng_idx :
    StableHlo.after ((hostOps2.take 18).drop 8) V (Proc.devRef .tc main_call2_v5) = V (Proc.devRef .tc main_call2_v5) := by
  dsimp only [hostOps2, List.take, List.drop]; after_results

private theorem take_rng_x :
    StableHlo.after ((hostOps2.take 18).drop 8) V (Proc.devRef .tc main_v17) = V (Proc.devRef .tc main_v17) := by
  dsimp only [hostOps2, List.take, List.drop]; after_results

private theorem take_sel :
    StableHlo.after (hostOps2.drop 18) V (Proc.devRef .tc main_v18)
      = (select
          (broadcastInDim S800000x64 ![0] Facts₀.bcast_S800000_S800000x64_0 (V (Proc.devRef .tc main_call2_v12) : IVec S800000 1))
          (Host.gather gather_S50000x64_S800000x1_S800000x64_1_0_n_n_0_1_164
            (V (Proc.devRef .tc main_v17) : FVec Ideal S50000x64 .f32) (V (Proc.devRef .tc main_call2_v5) : IVec S800000x1 32))
          (broadcastInDim S800000x64 ![] Facts₀.bcast_S_S800000x64 (constant (F := Ideal) S_ .f32 0x7FC00000#32))
        : FVec Ideal S800000x64 .f32) := by
  dsimp only [hostOps2, List.drop]; after_results
  simp only [ofBuf_toBuf, toBuf_v18, ofBuf_c12, ofBuf_v17, ofBuf_c5]

/-- The whole gather stretch: the rows of `main_v17`'s contents taken at the normalised indices of `main_v1`'s. -/
private theorem take_run :
    StableHlo.after hostOps2 V (Proc.devRef .tc main_v18)
      = takeK (V (Proc.devRef .tc main_v17)) (nidx (V (Proc.devRef .tc main_v1))) := by
  have split : StableHlo.after hostOps2 V
      = StableHlo.after (hostOps2.drop 18) (StableHlo.after ((hostOps2.take 18).drop 8) (StableHlo.after (hostOps2.take 8) V)) := rfl
  rw [split, take_sel, take_rng, take_rng_x, take_rng_idx, take_idx, take_idx_x]
  rfl

end Take

/-! ## The other stretches, over arbitrary contents -/

section Stretches

variable (V : Valuation τ sig (Elt Ideal))

/-- The scatter stretch before region 2: the gathered rows added, from zeros, into the rows the destination row names. -/
private theorem scatter_run :
    StableHlo.after hostOps2_1 V (Proc.devRef .tc main_v21)
      = (Host.scatterAdd scatter_S50000x64_S800000x1_S800000x64_1_0_0_1
          (broadcastInDim S50000x64 ![] Facts₀.bcast_S_S50000x64 (constant (F := Ideal) S_ .f32 0x00000000#32))
          (broadcastInDim S800000x1 ![0] Facts₀.bcast_S800000_S800000x1_0 (V (Proc.devRef .tc main_v3) : IVec S800000 32))
          (V (Proc.devRef .tc main_v18) : FVec Ideal S800000x64 .f32) : FVec Ideal S50000x64 .f32) := by
  dsimp only [hostOps2_1]; after_results

/-- The two biases of region 2 as rows. -/
private theorem bias_a_run :
    StableHlo.after hostOps2_1 V (Proc.devRef .tc main_v22)
      = shapeCast _ (V (Proc.devRef .tc main_arg12) : FVec Ideal S64 .f32) Facts₀.shapeCasts_S64_S1x64 := by
  dsimp only [hostOps2_1]; after_results; rfl
private theorem bias_b_run :
    StableHlo.after hostOps2_1 V (Proc.devRef .tc main_v23)
      = shapeCast _ (V (Proc.devRef .tc main_arg14) : FVec Ideal S64 .f32) Facts₀.shapeCasts_S64_S1x64 := by
  dsimp only [hostOps2_1]; after_results; rfl

/-- The pooling stretch before region 3: per graph, the sum of `main_v24`'s rows over the count of the graph's nodes,
    the count at least one. -/
private theorem pool_run :
    StableHlo.after hostOps3 V (Proc.devRef .tc main_v36)
      = pooledK (V (Proc.devRef .tc main_v24)) (V (Proc.devRef .tc main_arg2)) := by
  dsimp only [hostOps3]; after_results_simp; rfl

/-- The head's bias as a 1 × 1 array. -/
private theorem bias_l_run :
    StableHlo.after hostOps3 V (Proc.devRef .tc main_v37)
      = shapeCast _ (V (Proc.devRef .tc main_arg16) : FVec Ideal S1 .f32) Facts₀.shapeCasts_S1_S1x1 := by
  dsimp only [hostOps3]; after_results; rfl

end Stretches

/-! ## The edge list's two rows, split off before the first region, at region 1's exit

`hostOps0` writes row 0 of the edge list to `main_v1` and row 1 to `main_v3`; no later operation writes them and no
region has them as an array, so they are carried unchanged through every boundary up to region 1's exit. -/

private theorem W7_v1 (c : Dev nD) : W7 m ρ c (Proc.devRef .tc main_v1) = src (m ((c : Thread nD τ).loc main_arg1)) :=
  calc W7 m ρ c (Proc.devRef .tc main_v1)
    _ = W6 m ρ c (Proc.devRef .tc main_v1) := W7_of_ne m ρ c main_v1 (by decide)
    _ = W5 m ρ c (Proc.devRef .tc main_v1) := by keeps hostOps1_1
    _ = W4 m ρ c (Proc.devRef .tc main_v1) := by keeps hostOps1
    _ = W3 m ρ c (Proc.devRef .tc main_v1) := W4_of_ne m ρ c main_v1 (by decide)
    _ = W2 m ρ c (Proc.devRef .tc main_v1) := by keeps hostOps0_2
    _ = W1 m ρ c (Proc.devRef .tc main_v1) := by keeps hostOps0_1
    _ = src (m ((c : Thread nD τ).loc main_arg1)) := by
      show StableHlo.after hostOps0 (W0 m ρ c) (Proc.devRef .tc main_v1) = _
      after_results; rfl

private theorem W8_v3 (c : Dev nD) : W8 m ρ c (Proc.devRef .tc main_v3) = dst (m ((c : Thread nD τ).loc main_arg1)) :=
  calc W8 m ρ c (Proc.devRef .tc main_v3)
    _ = W7 m ρ c (Proc.devRef .tc main_v3) := by keeps hostOps2
    _ = W6 m ρ c (Proc.devRef .tc main_v3) := W7_of_ne m ρ c main_v3 (by decide)
    _ = W5 m ρ c (Proc.devRef .tc main_v3) := by keeps hostOps1_1
    _ = W4 m ρ c (Proc.devRef .tc main_v3) := by keeps hostOps1
    _ = W3 m ρ c (Proc.devRef .tc main_v3) := W4_of_ne m ρ c main_v3 (by decide)
    _ = W2 m ρ c (Proc.devRef .tc main_v3) := by keeps hostOps0_2
    _ = W1 m ρ c (Proc.devRef .tc main_v3) := by keeps hostOps0_1
    _ = dst (m ((c : Thread nD τ).loc main_arg1)) := by
      show StableHlo.after hostOps0 (W0 m ρ c) (Proc.devRef .tc main_v3) = _
      after_results; rfl

/-- After the gather stretch: region 1's output taken at the launched edge list's source row. -/
private theorem W8_v18 (c : Dev nD) : W8 m ρ c (Proc.devRef .tc main_v18)
    = takeK (W7 m ρ c (Proc.devRef .tc main_v17)) (nidx (src (m ((c : Thread nD τ).loc main_arg1)))) :=
  (take_run (W7 m ρ c)).trans (by rw [W7_v1])

/-! ## The arguments between the boundaries

No host operation writes an argument and a region at most reads it, so from any boundary on it holds what it holds at
the return, which is what was launched. -/

private theorem W8_arg12 (c : Dev nD) : W8 m ρ c (Proc.devRef .tc main_arg12) = m ((c : Thread nD τ).loc main_arg12) :=
  calc W8 m ρ c (Proc.devRef .tc main_arg12)
    _ = W9 m ρ c (Proc.devRef .tc main_arg12) := Eq.symm (by keeps hostOps2_1)
    _ = W10 m ρ c (Proc.devRef .tc main_arg12) := (W10_of_ne m ρ c main_arg12 (by decide)).symm
    _ = W11 m ρ c (Proc.devRef .tc main_arg12) := Eq.symm (by keeps hostOps3)
    _ = W12 m ρ c (Proc.devRef .tc main_arg12) := (W12_of_ne m ρ c main_arg12 (by decide)).symm
    _ = m ((c : Thread nD τ).loc main_arg12) := W12_main_arg12 m ρ c

private theorem W8_arg14 (c : Dev nD) : W8 m ρ c (Proc.devRef .tc main_arg14) = m ((c : Thread nD τ).loc main_arg14) :=
  calc W8 m ρ c (Proc.devRef .tc main_arg14)
    _ = W9 m ρ c (Proc.devRef .tc main_arg14) := Eq.symm (by keeps hostOps2_1)
    _ = W10 m ρ c (Proc.devRef .tc main_arg14) := (W10_of_ne m ρ c main_arg14 (by decide)).symm
    _ = W11 m ρ c (Proc.devRef .tc main_arg14) := Eq.symm (by keeps hostOps3)
    _ = W12 m ρ c (Proc.devRef .tc main_arg14) := (W12_of_ne m ρ c main_arg14 (by decide)).symm
    _ = m ((c : Thread nD τ).loc main_arg14) := W12_main_arg14 m ρ c

private theorem W10_arg2 (c : Dev nD) : W10 m ρ c (Proc.devRef .tc main_arg2) = m ((c : Thread nD τ).loc main_arg2) :=
  calc W10 m ρ c (Proc.devRef .tc main_arg2)
    _ = W11 m ρ c (Proc.devRef .tc main_arg2) := Eq.symm (by keeps hostOps3)
    _ = W12 m ρ c (Proc.devRef .tc main_arg2) := (W12_of_ne m ρ c main_arg2 (by decide)).symm
    _ = m ((c : Thread nD τ).loc main_arg2) := W12_main_arg2 m ρ c

private theorem W10_arg16 (c : Dev nD) : W10 m ρ c (Proc.devRef .tc main_arg16) = m ((c : Thread nD τ).loc main_arg16) :=
  calc W10 m ρ c (Proc.devRef .tc main_arg16)
    _ = W11 m ρ c (Proc.devRef .tc main_arg16) := Eq.symm (by keeps hostOps3)
    _ = W12 m ρ c (Proc.devRef .tc main_arg16) := (W12_of_ne m ρ c main_arg16 (by decide)).symm
    _ = m ((c : Thread nD τ).loc main_arg16) := W12_main_arg16 m ρ c

/-! ## Region 2's entry contents, over region 1's exit contents -/

/-- The neighbour sum: the scatter-add, from zeros and at the destination row, of region 1's output gathered at the
    source row. -/
theorem V9_v21 (c : Dev nD) : V9 m ρ c main_v21 = aggK (V7 m ρ c main_v17) (m ((c : Thread nD τ).loc main_arg1)) := by
  have h := scatter_run (W8 m ρ c)
  rw [W8_v3, W8_v18] at h
  exact h

/-- Region 1's output is written by neither stretch. -/
theorem V9_v17 (c : Dev nD) : V9 m ρ c main_v17 = V7 m ρ c main_v17 :=
  calc W9 m ρ c (Proc.devRef .tc main_v17)
    _ = W8 m ρ c (Proc.devRef .tc main_v17) := by keeps hostOps2_1
    _ = W7 m ρ c (Proc.devRef .tc main_v17) := by keeps hostOps2

theorem V9_arg11 (c : Dev nD) : V9 m ρ c main_arg11 = m ((c : Thread nD τ).loc main_arg11) :=
  calc W9 m ρ c (Proc.devRef .tc main_arg11)
    _ = W10 m ρ c (Proc.devRef .tc main_arg11) :=
      ((W10_arr m ρ c 2).trans (((dat2 (V9 m ρ) c).arrAt_in 2 rfl _).trans (A_eq2 (V9 m ρ) c 2))).symm
    _ = W11 m ρ c (Proc.devRef .tc main_arg11) := Eq.symm (by keeps hostOps3)
    _ = W12 m ρ c (Proc.devRef .tc main_arg11) := (W12_of_ne m ρ c main_arg11 (by decide)).symm
    _ = m ((c : Thread nD τ).loc main_arg11) := W12_main_arg11 m ρ c

theorem V9_v22 (c : Dev nD) : V9 m ρ c main_v22 = shapeCast _ (m ((c : Thread nD τ).loc main_arg12)) Facts₀.shapeCasts_S64_S1x64 := by
  have h := bias_a_run (W8 m ρ c)
  rw [W8_arg12] at h
  exact h

theorem V9_arg13 (c : Dev nD) : V9 m ρ c main_arg13 = m ((c : Thread nD τ).loc main_arg13) :=
  calc W9 m ρ c (Proc.devRef .tc main_arg13)
    _ = W10 m ρ c (Proc.devRef .tc main_arg13) :=
      ((W10_arr m ρ c 4).trans (((dat2 (V9 m ρ) c).arrAt_in 4 rfl _).trans (A_eq2 (V9 m ρ) c 4))).symm
    _ = W11 m ρ c (Proc.devRef .tc main_arg13) := Eq.symm (by keeps hostOps3)
    _ = W12 m ρ c (Proc.devRef .tc main_arg13) := (W12_of_ne m ρ c main_arg13 (by decide)).symm
    _ = m ((c : Thread nD τ).loc main_arg13) := W12_main_arg13 m ρ c

theorem V9_v23 (c : Dev nD) : V9 m ρ c main_v23 = shapeCast _ (m ((c : Thread nD τ).loc main_arg14)) Facts₀.shapeCasts_S64_S1x64 := by
  have h := bias_b_run (W8 m ρ c)
  rw [W8_arg14] at h
  exact h

/-! ## Region 3's entry contents, over region 2's exit contents -/

/-- The mean pooling: per graph, the sum of region 2's output rows over the number of the graph's nodes, at least one. -/
theorem V11_v36 (c : Dev nD) : V11 m ρ c main_v36 = pooledK (V10 m ρ c main_v24) (m ((c : Thread nD τ).loc main_arg2)) := by
  have h := pool_run (W10 m ρ c)
  rw [W10_arg2] at h
  exact h

theorem V11_arg15 (c : Dev nD) : V11 m ρ c main_arg15 = m ((c : Thread nD τ).loc main_arg15) :=
  calc W11 m ρ c (Proc.devRef .tc main_arg15)
    _ = W12 m ρ c (Proc.devRef .tc main_arg15) :=
      ((W12_arr m ρ c 1).trans (((dat3 (V11 m ρ) c).arrAt_in 1 rfl _).trans (A_eq3 (V11 m ρ) c 1))).symm
    _ = m ((c : Thread nD τ).loc main_arg15) := W12_main_arg15 m ρ c

theorem V11_v37 (c : Dev nD) : V11 m ρ c main_v37 = shapeCast _ (m ((c : Thread nD τ).loc main_arg16)) Facts₀.shapeCasts_S1_S1x1 := by
  have h := bias_l_run (W10 m ρ c)
  rw [W10_arg16] at h
  exact h

end Cert.Gin.K

end
-- ==== Proof.KernelValue.lean ====
import proofs.«415730_j77171972374916_1_alg».proof.Proof.Gen.KernelIdeal.Frame
import proofs.«415730_j77171972374916_1_alg».proof.Proof.Spec
import proofs.«415730_j77171972374916_1_alg».proof.Proof.Region0
import proofs.«415730_j77171972374916_1_alg».proof.Proof.Region1
import proofs.«415730_j77171972374916_1_alg».proof.Proof.Region2
import proofs.«415730_j77171972374916_1_alg».proof.Proof.Region3
import proofs.«415730_j77171972374916_1_alg».proof.Proof.HostK01
import proofs.«415730_j77171972374916_1_alg».proof.Proof.HostK23

set_option maxRecDepth 16384

noncomputable section

open Idealize.ShloMosaic Idealize.ShloMosaic.TcCoe Idealize.SL.Sem

namespace Cert.Gin.K

open Cert.KernelIdeal Cert.KernelIdeal.Gen

variable (m : (ℓ : Loc nD τ sig) → Buf (Elt Ideal) ℓ) (ρ : Dev nD → PrngReg)

/-- After the first region its output array holds the first layer of the launch features. -/
theorem V4_v10 (c : Dev nD) : V4 m ρ c main_v10 = layerK (m ((c : Thread nD τ).loc main_arg1)) (m ((c : Thread nD τ).loc main_arg0)) (m ((c : Thread nD τ).loc main_arg3)) (m ((c : Thread nD τ).loc main_arg4)) (m ((c : Thread nD τ).loc main_arg5)) (m ((c : Thread nD τ).loc main_arg6)) := by
  refine (W4_arr m ρ c 6).trans ?_
  rw [arr0 (V3 m ρ) c, V3_v7, V3_arg0, V3_arg3, V3_v8, V3_arg5, V3_v9]
  rfl

/-- After the second region its output array holds the second layer of the first region's output. -/
theorem V7_v17 (c : Dev nD) : V7 m ρ c main_v17 = layerK (m ((c : Thread nD τ).loc main_arg1)) (V4 m ρ c main_v10) (m ((c : Thread nD τ).loc main_arg7)) (m ((c : Thread nD τ).loc main_arg8)) (m ((c : Thread nD τ).loc main_arg9)) (m ((c : Thread nD τ).loc main_arg10)) := by
  refine (W7_arr m ρ c 6).trans ?_
  rw [Layer1.arr1 (V6 m ρ) c, V6_v14, V6_v10, V6_arg7, V6_v15, V6_arg9, V6_v16]
  rfl

/-- After the third region its output array holds the third layer of the second region's output. -/
theorem V10_v24 (c : Dev nD) : V10 m ρ c main_v24 = layerK (m ((c : Thread nD τ).loc main_arg1)) (V7 m ρ c main_v17) (m ((c : Thread nD τ).loc main_arg11)) (m ((c : Thread nD τ).loc main_arg12)) (m ((c : Thread nD τ).loc main_arg13)) (m ((c : Thread nD τ).loc main_arg14)) := by
  refine (W10_arr m ρ c 6).trans ?_
  rw [Layer2.arr2 (V9 m ρ) c, V9_v21, V9_v17, V9_arg11, V9_v22, V9_arg13, V9_v23]
  rfl

/-- The result buffer at the end of the kernel's program: the head of three layers of the launch features. -/
theorem W12_v38 (c : Dev nD) : W12 m ρ c (Proc.devRef .tc main_v38)
    = tailK (m ((c : Thread nD τ).loc main_arg2))
        (layerK (m ((c : Thread nD τ).loc main_arg1))
          (layerK (m ((c : Thread nD τ).loc main_arg1))
            (layerK (m ((c : Thread nD τ).loc main_arg1)) (m ((c : Thread nD τ).loc main_arg0)) (m ((c : Thread nD τ).loc main_arg3)) (m ((c : Thread nD τ).loc main_arg4)) (m ((c : Thread nD τ).loc main_arg5)) (m ((c : Thread nD τ).loc main_arg6)))
            (m ((c : Thread nD τ).loc main_arg7)) (m ((c : Thread nD τ).loc main_arg8)) (m ((c : Thread nD τ).loc main_arg9)) (m ((c : Thread nD τ).loc main_arg10)))
          (m ((c : Thread nD τ).loc main_arg11)) (m ((c : Thread nD τ).loc main_arg12)) (m ((c : Thread nD τ).loc main_arg13)) (m ((c : Thread nD τ).loc main_arg14)))
        (m ((c : Thread nD τ).loc main_arg15)) (m ((c : Thread nD τ).loc main_arg16)) := by
  refine (W12_arr m ρ c 3).trans ?_
  rw [arr3 (V11 m ρ) c, V11_v36, V11_arg15, V11_v37, V10_v24, V7_v17, V4_v10]
  rfl

end Cert.Gin.K

end
-- ==== Proof.RefShape.lean ====
import proofs.«415730_j77171972374916_1_alg».proof.Proof.Gen.ReferenceIdeal.Run
import proofs.«415730_j77171972374916_1_alg».proof.Proof.Spec

set_option maxRecDepth 16384

noncomputable section

open Idealize.ShloMosaic Idealize.ShloMosaic.TcCoe Idealize.SL.Sem

namespace Cert.Gin

open Cert.ReferenceIdeal

/-- The reference's result, as its run states it, is the head applied to three layers of the features: the run's
    term is this composition of the same host operations, with each layer's output spelt out where it is used. -/
theorem res_eq (m : (ℓ : Loc nD τ sig) → Buf (Elt Ideal) ℓ) (c : Dev nD) :
    Cert.ReferenceIdeal.Value.res_main_v82 (F := Ideal) m c
      = R.tailR (m ((c.tc : Thread nD τ).loc main_arg2))
          (R.layerR (m ((c.tc : Thread nD τ).loc main_arg1))
            (R.layerR (m ((c.tc : Thread nD τ).loc main_arg1))
              (R.layerR (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)))
              (m ((c.tc : Thread nD τ).loc main_arg7)) (m ((c.tc : Thread nD τ).loc main_arg8)) (m ((c.tc : Thread nD τ).loc main_arg9)) (m ((c.tc : Thread nD τ).loc main_arg10)))
            (m ((c.tc : Thread nD τ).loc main_arg11)) (m ((c.tc : Thread nD τ).loc main_arg12)) (m ((c.tc : Thread nD τ).loc main_arg13)) (m ((c.tc : Thread nD τ).loc main_arg14)))
          (m ((c.tc : Thread nD τ).loc main_arg15)) (m ((c.tc : Thread nD τ).loc main_arg16)) := by
  unfold Cert.ReferenceIdeal.Value.res_main_v82 R.tailR R.headR R.pooledR R.layerR R.mlpR R.aggR R.nidx R.src R.dst
  rfl

end Cert.Gin

end
-- ==== Proof.PreRange.lean ====
import proofs.«415730_j77171972374916_1_alg».proof.Defs
import proofs.«415730_j77171972374916_1_alg».proof.Proof.Gen.Pre_finite_inputs
import proofs.«415730_j77171972374916_1_alg».proof.Proof.Spec
import Idealize.ShloMosaic.Lib.ReduceAll
import Idealize.ShloMosaic.Lib.StableHlo.Predicate
import Idealize.ShloMosaic.Lib.ValueIdx

set_option maxRecDepth 16384

noncomputable section

open Idealize.ShloMosaic Idealize.ShloMosaic.TcCoe Idealize.SL.Sem

namespace Cert.Gin

open Cert.KernelIdeal

namespace PreRange

/-- A left fold by `and`, started at 1, over words that are all 1 ends at 1. -/
theorem foldl_andi_one {ι : Type} (f : ι → BitVec 1) (hf : ∀ n, f n = 1#1) :
    ∀ (l : List ι), l.foldl (fun r n => IntOp.andi r (f n)) 1#1 = 1#1
  | [] => rfl
  | a :: l => by
    have h11 : IntOp.andi 1#1 1#1 = 1#1 := by decide
    rw [List.foldl_cons, hf a, h11]
    exact foldl_andi_one f hf l

/-- The converse of reading `jnp.all` back: a reduction by `and`, started at 1, of an array whose every entry is 1
    is 1 at every result index (the fold at a result index starts at 1 and meets only 1s). -/
theorem reduce_andi_one {s t u : Shape} {axes : List (Fin s.rank)} (x : s.Idx → BitVec 1) (init : u.Idx → BitVec 1)
    (h : s.ReducesTo axes t) (hu : 0 < u.numel) (j : t.Idx) (hinit : ∀ k, init k = 1#1) (hx : ∀ i, x i = 1#1) :
    Host.reduce IntOp.andi x init h hu j = 1#1 := by
  rw [Host.reduce_eq_foldl, hinit]
  exact foldl_andi_one x hx _

/-- The fact about one 32-bit word `w`: if `0 ≤ w` and `w < 50000` as signed integers, then `w < 0` fails, so the
    normalised word `if w < 0 then w + 50000 else w` is `w` itself, and `0 ≤ w ≤ 49999`. -/
theorem word_inRange (w : BitVec 32) (h0 : IntOp.cmpi .sge w 0#32 = 1#1) (h1 : IntOp.cmpi .slt w 50000#32 = 1#1) :
    IntOp.andi
      (IntOp.cmpi .sge (Scalar.select (IntOp.cmpi .slt w 0#32) (IntOp.addi w 50000#32) w) 0#32)
      (IntOp.cmpi .sle (Scalar.select (IntOp.cmpi .slt w 0#32) (IntOp.addi w 50000#32) w) 49999#32) = 1#1 := by
  rw [IntOp.cmpi_sge] at h0
  rw [IntOp.cmpi_slt] at h1
  have hz : (0#32 : BitVec 32).toInt = 0 := by decide
  have h5 : (50000#32 : BitVec 32).toInt = 50000 := by decide
  have h4 : (49999#32 : BitVec 32).toInt = 49999 := by decide
  have hn : ¬ IntOp.cmpi .slt w 0#32 = 1#1 := by rw [IntOp.cmpi_slt]; omega
  have hs : Scalar.select (IntOp.cmpi .slt w 0#32) (IntOp.addi w 50000#32) w = w := by
    unfold Scalar.select; exact if_neg hn
  rw [hs, IntOp.andi_eq_one, IntOp.cmpi_sge, IntOp.cmpi_sle]
  omega

/-- An entry of the normalised index column is the normalisation of one edge's source index: the column is the
    vector of normalised indices laid along axis 0, the comparison and the sum are elementwise, and the two constants
    are broadcast scalars. -/
theorem nidx_apply (s : IVec S800000 32) (y : S800000x1.Idx) :
    ∃ i' : S800000.Idx, K.nidx s y = Scalar.select (IntOp.cmpi .slt (s i') 0#32) (IntOp.addi (s i') 50000#32) (s i') :=
  ⟨_, rfl⟩

/-- If every source index lies in `[0, 50000)` then every edge's normalised index lies in `[0, 49999]`: each entry of
    the column is in range by the fact about one word, so the `and` along the unit axis, started at 1, is 1. -/
theorem inRange_of_all (s : IVec S800000 32)
    (hall : ∀ i, IntOp.cmpi .sge (s i) 0#32 = 1#1 ∧ IntOp.cmpi .slt (s i) 50000#32 = 1#1) (i : S800000.Idx) :
    K.inRange (K.nidx s) i = 1#1 := by
  unfold K.inRange
  refine reduce_andi_one _ _ _ _ _ (fun k => rfl) (fun y => ?_)
  obtain ⟨i', hi'⟩ := nidx_apply s y
  show IntOp.andi (IntOp.cmpi .sge (K.nidx s y) 0#32) (IntOp.cmpi .sle (K.nidx s y) 49999#32) = 1#1
  rw [hi']
  exact word_inRange _ (hall i').1 (hall i').2

end PreRange

/-- Under the precondition every edge's source index, normalised as the gather takes it, lies in `[0, 49999]`:
    the precondition's last conjunct says `0 ≤ src < 50000` of row 0 of the edge list, so no index is negative
    (the normalisation leaves it as it is) and each is at most 49999. -/
theorem src_inRange (m : (ℓ : Loc nD τ sig) → Buf (Elt Ideal) ℓ) (hpre : Cert.Pre_KernelIdeal m) (c : Dev nD) (i : S800000.Idx) :
    K.inRange (K.nidx (K.src (m ((c.tc : Thread nD τ).loc main_arg1)))) i = 1#1 := by
  refine PreRange.inRange_of_all _ (fun i => ?_) i
  -- the precondition at the scalar's one index is an `and` of two bits; the second is the conjunct about the edge list
  have h := congrFun (hpre c) ValueIdx.ix0
  have h2 := (IntOp.andi_eq_one.1 h).2
  -- that conjunct is an `and`-reduction to a scalar, so every entry it reduces is 1
  haveI : Subsingleton (Cert.Pre_finite_inputs.S_).Idx := ⟨fun a b => funext fun d => d.elim0⟩
  have h3 := Host.reduce_andi_all _ _ _ _ _ h2 i
  -- the entry at edge `i` is `(src i ≥ 0) and (src i < 50000)`, of the same row 0 of the edge list
  exact IntOp.andi_eq_one.1 h3

/-- Where every index is in range the kernel program's NaN-filling gather is the plain gather. -/
theorem takeK_eq_gather (x : FVec Ideal S50000x64 .f32) (j : IVec S800000x1 32) (h : ∀ i, K.inRange j i = 1#1) :
    K.takeK x j = Host.gather gather_S50000x64_S800000x1_S800000x64_1_0_n_n_0_1_164 x j := by
  funext y
  unfold K.takeK
  rw [ValueIdx.select_apply]
  -- the mask at `y` is the in-range bit of `y`'s row, which is 1, so the select takes the gathered entry
  have hc : broadcastInDim S800000x64 ![0] Facts₀.bcast_S800000_S800000x64_0 (K.inRange j) y = 1#1 := h _
  rw [hc]
  rfl

end Cert.Gin

end
-- ==== Proof.DenseBridge.lean ====
import proofs.«415730_j77171972374916_1_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open Idealize.ShloMosaic Idealize.ShloMosaic.TcCoe Idealize.SL.Sem

namespace Cert.Gin

open Idealize.ShloMosaic.ValueIdx

/-! ## The reference's host operations read at an index

Each operation of the reference's dense chain, read at the index `(p, q)`: a `dot_general` that contracts the left
operand's second axis with the right operand's first is the sum over the contracted coordinate; a bias vector broadcast
first to a row and then down the rows reads its entry at the column; the broadcast scalar zero reads zero. -/

section HostOpsAtAnIndex

open Cert.ReferenceIdeal Cert.ReferenceIdeal.Facts₀

/-- The left operand's index of the 50000 × 64 by 64 × 64 product keeps the output's row … -/
theorem lhs_dotA_0 (i : S50000x64.Idx) (c : dot_S50000x64_S64x64_S50000x64_1_0_0_1_n_n.contr.Idx) :
    (dot_S50000x64_S64x64_S50000x64_1_0_0_1_n_n.lhsIdx i c 0).val = (i 0).val := by
  unfold DotDims.lhsIdx
  rw [dif_neg (show ¬(0 : Fin S50000x64.rank) ∈ dot_S50000x64_S64x64_S50000x64_1_0_0_1_n_n.lhsBatch by decide),
    dif_pos (show (0 : Fin S50000x64.rank) ∈ dot_S50000x64_S64x64_S50000x64_1_0_0_1_n_n.lhsNonContracting by decide)]
  rfl
/-- … and takes the contracted coordinate as its column. -/
theorem lhs_dotA_1 (i : S50000x64.Idx) (c : dot_S50000x64_S64x64_S50000x64_1_0_0_1_n_n.contr.Idx) :
    (dot_S50000x64_S64x64_S50000x64_1_0_0_1_n_n.lhsIdx i c 1).val = (c ⟨0, by decide⟩).val :=
  dot_S50000x64_S64x64_S50000x64_1_0_0_1_n_n.lhsIdx_val_of_single rfl i c
/-- The right operand's index takes the contracted coordinate as its row … -/
theorem rhs_dotA_0 (i : S50000x64.Idx) (c : dot_S50000x64_S64x64_S50000x64_1_0_0_1_n_n.contr.Idx) :
    (dot_S50000x64_S64x64_S50000x64_1_0_0_1_n_n.rhsIdx i c 0).val = (c ⟨0, by decide⟩).val :=
  dot_S50000x64_S64x64_S50000x64_1_0_0_1_n_n.rhsIdx_val_of_single rfl i c
/-- … and keeps the output's column. -/
theorem rhs_dotA_1 (i : S50000x64.Idx) (c : dot_S50000x64_S64x64_S50000x64_1_0_0_1_n_n.contr.Idx) :
    (dot_S50000x64_S64x64_S50000x64_1_0_0_1_n_n.rhsIdx i c 1).val = (i 1).val := by
  unfold DotDims.rhsIdx
  rw [dif_neg (show ¬(1 : Fin S64x64.rank) ∈ dot_S50000x64_S64x64_S50000x64_1_0_0_1_n_n.rhsBatch by decide),
    dif_pos (show (1 : Fin S64x64.rank) ∈ dot_S50000x64_S64x64_S50000x64_1_0_0_1_n_n.rhsNonContracting by decide)]
  rfl

/-- The 50000 × 64 by 64 × 64 product at `(p, q)`: the sum over `k` of `l (p, k) * r (k, q)`. The contraction's index set
    has one axis of extent 64; the sum is re-indexed through its identification with `Fin 64`, and the operand indices
    are read coordinate by coordinate. -/
theorem dotA_apply (l : FVec Ideal S50000x64 .f32) (r : FVec Ideal S64x64 .f32) (p : Fin 50000) (q : Fin 64) :
    Host.dotGeneral dot_S50000x64_S64x64_S50000x64_1_0_0_1_n_n none l r (ix2 p q) = ∑ k : Fin 64, l (ix2 p k) * r (ix2 k q) := by
  simp only [Host.dotGeneral]
  rw [Ideal.dotGeneral_apply, ← Equiv.sum_comp (contrEquiv1 dot_S50000x64_S64x64_S50000x64_1_0_0_1_n_n 64 rfl rfl).symm]
  refine Finset.sum_congr rfl fun k _ => ?_
  have hk := contrEquiv1_symm_val dot_S50000x64_S64x64_S50000x64_1_0_0_1_n_n 64 rfl rfl k
  have el : dot_S50000x64_S64x64_S50000x64_1_0_0_1_n_n.lhsIdx (ix2 p q) ((contrEquiv1 dot_S50000x64_S64x64_S50000x64_1_0_0_1_n_n 64 rfl rfl).symm k) = ix2 p k :=
    funext fun a => Fin.ext (by
      match a with
      | ⟨0, _⟩ => exact lhs_dotA_0 _ _
      | ⟨1, _⟩ => exact (lhs_dotA_1 _ _).trans hk)
  have er : dot_S50000x64_S64x64_S50000x64_1_0_0_1_n_n.rhsIdx (ix2 p q) ((contrEquiv1 dot_S50000x64_S64x64_S50000x64_1_0_0_1_n_n 64 rfl rfl).symm k) = ix2 k q :=
    funext fun a => Fin.ext (by
      match a with
      | ⟨0, _⟩ => exact (rhs_dotA_0 _ _).trans hk
      | ⟨1, _⟩ => exact rhs_dotA_1 _ _)
  rw [el, er]

/-- The left operand's index of the 512 × 64 by 64 × 1 product keeps the output's row … -/
theorem lhs_dotH_0 (i : S512x1.Idx) (c : dot_S512x64_S64x1_S512x1_1_0_0_1_n_n.contr.Idx) :
    (dot_S512x64_S64x1_S512x1_1_0_0_1_n_n.lhsIdx i c 0).val = (i 0).val := by
  unfold DotDims.lhsIdx
  rw [dif_neg (show ¬(0 : Fin S512x64.rank) ∈ dot_S512x64_S64x1_S512x1_1_0_0_1_n_n.lhsBatch by decide),
    dif_pos (show (0 : Fin S512x64.rank) ∈ dot_S512x64_S64x1_S512x1_1_0_0_1_n_n.lhsNonContracting by decide)]
  rfl
/-- … and takes the contracted coordinate as its column. -/
theorem lhs_dotH_1 (i : S512x1.Idx) (c : dot_S512x64_S64x1_S512x1_1_0_0_1_n_n.contr.Idx) :
    (dot_S512x64_S64x1_S512x1_1_0_0_1_n_n.lhsIdx i c 1).val = (c ⟨0, by decide⟩).val :=
  dot_S512x64_S64x1_S512x1_1_0_0_1_n_n.lhsIdx_val_of_single rfl i c
/-- The right operand's index takes the contracted coordinate as its row … -/
theorem rhs_dotH_0 (i : S512x1.Idx) (c : dot_S512x64_S64x1_S512x1_1_0_0_1_n_n.contr.Idx) :
    (dot_S512x64_S64x1_S512x1_1_0_0_1_n_n.rhsIdx i c 0).val = (c ⟨0, by decide⟩).val :=
  dot_S512x64_S64x1_S512x1_1_0_0_1_n_n.rhsIdx_val_of_single rfl i c
/-- … and keeps the output's column. -/
theorem rhs_dotH_1 (i : S512x1.Idx) (c : dot_S512x64_S64x1_S512x1_1_0_0_1_n_n.contr.Idx) :
    (dot_S512x64_S64x1_S512x1_1_0_0_1_n_n.rhsIdx i c 1).val = (i 1).val := by
  unfold DotDims.rhsIdx
  rw [dif_neg (show ¬(1 : Fin S64x1.rank) ∈ dot_S512x64_S64x1_S512x1_1_0_0_1_n_n.rhsBatch by decide),
    dif_pos (show (1 : Fin S64x1.rank) ∈ dot_S512x64_S64x1_S512x1_1_0_0_1_n_n.rhsNonContracting by decide)]
  rfl

/-- The 512 × 64 by 64 × 1 product at `(p, q)`: the sum over `k` of `l (p, k) * r (k, q)`. -/
theorem dotH_apply (l : FVec Ideal S512x64 .f32) (r : FVec Ideal S64x1 .f32) (p : Fin 512) (q : Fin 1) :
    Host.dotGeneral dot_S512x64_S64x1_S512x1_1_0_0_1_n_n none l r (ix2 p q) = ∑ k : Fin 64, l (ix2 p k) * r (ix2 k q) := by
  simp only [Host.dotGeneral]
  rw [Ideal.dotGeneral_apply, ← Equiv.sum_comp (contrEquiv1 dot_S512x64_S64x1_S512x1_1_0_0_1_n_n 64 rfl rfl).symm]
  refine Finset.sum_congr rfl fun k _ => ?_
  have hk := contrEquiv1_symm_val dot_S512x64_S64x1_S512x1_1_0_0_1_n_n 64 rfl rfl k
  have el : dot_S512x64_S64x1_S512x1_1_0_0_1_n_n.lhsIdx (ix2 p q) ((contrEquiv1 dot_S512x64_S64x1_S512x1_1_0_0_1_n_n 64 rfl rfl).symm k) = ix2 p k :=
    funext fun a => Fin.ext (by
      match a with
      | ⟨0, _⟩ => exact lhs_dotH_0 _ _
      | ⟨1, _⟩ => exact (lhs_dotH_1 _ _).trans hk)
  have er : dot_S512x64_S64x1_S512x1_1_0_0_1_n_n.rhsIdx (ix2 p q) ((contrEquiv1 dot_S512x64_S64x1_S512x1_1_0_0_1_n_n 64 rfl rfl).symm k) = ix2 k q :=
    funext fun a => Fin.ext (by
      match a with
      | ⟨0, _⟩ => exact (rhs_dotH_0 _ _).trans hk
      | ⟨1, _⟩ => exact rhs_dotH_1 _ _)
  rw [el, er]

/-- A bias vector broadcast to a 1 × 64 row and then to all 50000 rows reads, at `(p, q)`, its entry `q`: the row's unit
    axis reads coordinate 0, the column axis (extent 64, not 1) keeps `q`. -/
theorem biasA_apply (b : FVec Ideal S64 .f32) (p : Fin 50000) (q : Fin 64) :
    broadcastInDim S50000x64 ![0, 1] bcast_S1x64_S50000x64_0_1 (broadcastInDim S1x64 ![1] bcast_S64_S1x64_1 b) (ix2 p q) = b (ix1 q) :=
  (broadcastInDim_apply _ bcast_S1x64_S50000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans
  (broadcastInDim_apply _ bcast_S64_S1x64_1 b (ix2 (0 : Fin 1) q) (ix1 q) (fun a => match a with
    | ⟨0, _⟩ => by show q.val = if (64 : Nat) = 1 then 0 else q.val; rw [if_neg (by decide)]))

/-- The head's one-entry bias broadcast to 1 × 1 and then to all 512 rows reads its one entry everywhere: every axis it is
    read along has extent 1, so every coordinate read is 0. -/
theorem biasH_apply (b : FVec Ideal S1 .f32) (p : Fin 512) (q : Fin 1) :
    broadcastInDim S512x1 ![0, 1] bcast_S1x1_S512x1_0_1 (broadcastInDim S1x1 ![1] bcast_S1_S1x1_1 b) (ix2 p q) = b (ix1 (0 : Fin 1)) :=
  (broadcastInDim_apply _ bcast_S1x1_S512x1_0_1 _ (ix2 p q) (ix2 (0 : Fin 1) (0 : Fin 1)) (fun a => match a with
    | ⟨0, _⟩ => by show 0 = if (1 : Nat) = 1 then 0 else p.val; rw [if_pos rfl]
    | ⟨1, _⟩ => by show 0 = if (1 : Nat) = 1 then 0 else q.val; rw [if_pos rfl])).trans
  (broadcastInDim_apply _ bcast_S1_S1x1_1 b (ix2 (0 : Fin 1) (0 : Fin 1)) (ix1 (0 : Fin 1)) (fun a => match a with
    | ⟨0, _⟩ => by show 0 = if (1 : Nat) = 1 then 0 else 0; rw [if_pos rfl]))

/-- The scalar f32 zero broadcast over the 50000 × 64 array reads that zero at every index. -/
theorem zeroA_apply (j : S50000x64.Idx) :
    broadcastInDim S50000x64 ![] bcast_S_S50000x64 (constant (F := Ideal) S_ .f32 0x00000000#32) j = K.zero32 := rfl

end HostOpsAtAnIndex

/-! ## The two dense parts -/

/-- The reference's layer chain at `(p, q)`: the outer `relu` of the second product plus its bias, the second product's
    left operand being, entry by entry, the inner `relu` of the first product (of `agg + x` with `wa`) plus its bias. -/
theorem mlpR_apply (agg x : FVec Ideal Cert.ReferenceIdeal.S50000x64 .f32) (wa : FVec Ideal Cert.ReferenceIdeal.S64x64 .f32)
    (ba : FVec Ideal Cert.ReferenceIdeal.S64 .f32) (wb : FVec Ideal Cert.ReferenceIdeal.S64x64 .f32) (bb : FVec Ideal Cert.ReferenceIdeal.S64 .f32)
    (p : Fin 50000) (q : Fin 64) :
    R.mlpR agg x wa ba wb bb (ix2 p q)
      = max ((∑ k : Fin 64,
              max ((∑ l : Fin 64, (agg (ix2 p l) + x (ix2 p l)) * wa (ix2 l k)) + ba (ix1 k)) K.zero32 * wb (ix2 k q))
            + bb (ix1 q)) K.zero32 := by
  unfold R.mlpR
  rw [maximumf_apply, addf_apply, dotA_apply, biasA_apply, zeroA_apply]
  refine congrArg (fun s => max (s + bb (ix1 q)) K.zero32) (Finset.sum_congr rfl fun k _ => ?_)
  rw [maximumf_apply, addf_apply, dotA_apply, biasA_apply, zeroA_apply]
  refine congrArg (fun s => max (s + ba (ix1 k)) K.zero32 * wb (ix2 k q)) (Finset.sum_congr rfl fun l _ => ?_)
  rw [addf_apply]

/-- A layer's dense part, index by index (`K.mlpArr`, with the biases reshaped to rows), is the reference's chain of
    host operations `R.mlpR`: each `dot_general` at an index is the sum over the 64 hidden units, each bias broadcast
    reads its row entry, `relu` is the maximum with zero. -/
theorem mlpArr_eq_mlpR (agg x : FVec Ideal Cert.KernelIdeal.S50000x64 .f32) (wa : FVec Ideal Cert.KernelIdeal.S64x64 .f32)
    (ba : FVec Ideal Cert.KernelIdeal.S64 .f32) (wb : FVec Ideal Cert.KernelIdeal.S64x64 .f32) (bb : FVec Ideal Cert.KernelIdeal.S64 .f32) :
    K.mlpArr agg x wa (shapeCast _ ba Cert.KernelIdeal.Facts₀.shapeCasts_S64_S1x64) wb (shapeCast _ bb Cert.KernelIdeal.Facts₀.shapeCasts_S64_S1x64)
      = R.mlpR agg x wa ba wb bb := by
  funext i
  obtain ⟨p, q, rfl⟩ : ∃ (p : Fin 50000) (q : Fin 64), i = ix2 p q := ⟨i 0, i 1, eq_ix2 i⟩
  rw [mlpR_apply]
  -- the reshaped biases, a 64-vector seen as a 1 × 64 row, read at `(0, k)` the vector's entry `k`
  show max ((∑ k : Fin 64,
              max ((∑ l : Fin 64, (agg (ix2 p l) + x (ix2 p l)) * wa (ix2 l k))
                    + shapeCast _ ba Cert.KernelIdeal.Facts₀.shapeCasts_S64_S1x64 (ix2 (0 : Fin 1) k)) K.zero32 * wb (ix2 k q))
            + shapeCast _ bb Cert.KernelIdeal.Facts₀.shapeCasts_S64_S1x64 (ix2 (0 : Fin 1) q)) K.zero32 = _
  rw [shapeCast_a_1a_apply bb _ (0 : Fin 1) q]
  refine congrArg (fun s => max (s + bb (ix1 q)) K.zero32) (Finset.sum_congr rfl fun k _ => ?_)
  rw [shapeCast_a_1a_apply ba _ (0 : Fin 1) k]

/-- The reference's head at `(p, q)`: the product's sum over the 64 features plus the one bias entry. -/
theorem headR_apply (x : FVec Ideal Cert.ReferenceIdeal.S512x64 .f32) (wl : FVec Ideal Cert.ReferenceIdeal.S64x1 .f32)
    (bl : FVec Ideal Cert.ReferenceIdeal.S1 .f32) (p : Fin 512) (q : Fin 1) :
    R.headR x wl bl (ix2 p q) = (∑ k : Fin 64, x (ix2 p k) * wl (ix2 k q)) + bl (ix1 (0 : Fin 1)) := by
  unfold R.headR
  rw [addf_apply, dotH_apply, biasH_apply]

/-- The head's dense part, index by index (`K.poolArr`, the bias reshaped to 1 × 1), is the reference's `R.headR`. -/
theorem poolArr_eq_headR (p : FVec Ideal Cert.KernelIdeal.S512x64 .f32) (wl : FVec Ideal Cert.KernelIdeal.S64x1 .f32)
    (bl : FVec Ideal Cert.KernelIdeal.S1 .f32) :
    K.poolArr p wl (shapeCast _ bl Cert.KernelIdeal.Facts₀.shapeCasts_S1_S1x1) = R.headR p wl bl := by
  funext i
  obtain ⟨r, q, rfl⟩ : ∃ (r : Fin 512) (q : Fin 1), i = ix2 r q := ⟨i 0, i 1, eq_ix2 i⟩
  rw [headR_apply]
  -- the reshaped bias, a 1-vector seen as 1 × 1, reads at `(0, 0)` the vector's one entry
  show (∑ k : Fin 64, p (ix2 r k) * wl (ix2 k q))
      + shapeCast _ bl Cert.KernelIdeal.Facts₀.shapeCasts_S1_S1x1 (ix2 (0 : Fin 1) (0 : Fin 1)) = _
  rw [shapeCast_a_1a_apply bl _ (0 : Fin 1) (0 : Fin 1)]

end Cert.Gin

end
-- ==== Proof.Bridge.lean ====
import proofs.«415730_j77171972374916_1_alg».proof.Proof.Spec
import proofs.«415730_j77171972374916_1_alg».proof.Proof.PreRange
import proofs.«415730_j77171972374916_1_alg».proof.Proof.DenseBridge

set_option maxRecDepth 16384

noncomputable section

open Idealize.ShloMosaic Idealize.ShloMosaic.TcCoe Idealize.SL.Sem

namespace Cert.Gin

/-- Where every source index is in range the two programs form the same neighbour sum: the kernel's NaN-filling
    gather is then the plain gather, and the scatter-add and its operands are the same operations in both. -/
theorem aggK_eq_aggR (x : FVec Ideal Cert.KernelIdeal.S50000x64 .f32) (e : IVec Cert.KernelIdeal.S2x800000 32)
    (h : ∀ i, K.inRange (K.nidx (K.src e)) i = 1#1) : K.aggK x e = R.aggR x e := by
  unfold K.aggK R.aggR
  rw [takeK_eq_gather x _ h]
  rfl

/-- A layer of the kernel's program is a layer of the reference, where every source index is in range. -/
theorem layerK_eq_layerR (e : IVec Cert.KernelIdeal.S2x800000 32) (h : ∀ i, K.inRange (K.nidx (K.src e)) i = 1#1)
    (x : FVec Ideal Cert.KernelIdeal.S50000x64 .f32) (wa : FVec Ideal Cert.KernelIdeal.S64x64 .f32) (ba : FVec Ideal Cert.KernelIdeal.S64 .f32)
    (wb : FVec Ideal Cert.KernelIdeal.S64x64 .f32) (bb : FVec Ideal Cert.KernelIdeal.S64 .f32) :
    K.layerK e x wa ba wb bb = R.layerR e x wa ba wb bb := by
  unfold K.layerK R.layerR
  rw [mlpArr_eq_mlpR, aggK_eq_aggR x e h]

/-- The two programs pool with the same host operations. -/
theorem pooledK_eq_pooledR (x : FVec Ideal Cert.KernelIdeal.S50000x64 .f32) (b : IVec Cert.KernelIdeal.S50000 32) :
    K.pooledK x b = R.pooledR x b := rfl

/-- The head of the kernel's program is the head of the reference. -/
theorem tailK_eq_tailR (b : IVec Cert.KernelIdeal.S50000 32) (x : FVec Ideal Cert.KernelIdeal.S50000x64 .f32)
    (wl : FVec Ideal Cert.KernelIdeal.S64x1 .f32) (bl : FVec Ideal Cert.KernelIdeal.S1 .f32) :
    K.tailK b x wl bl = R.tailR b x wl bl := by
  unfold K.tailK R.tailR
  rw [poolArr_eq_headR, pooledK_eq_pooledR]

end Cert.Gin

end
-- ==== Proof.lean ====
/-
  The certificate of a three-layer GIN critic (graph convolutions `relu (MLP (x + Σ_{j→i} x_j))`, mean pooling per
  graph, a linear head) whose dense parts run in Pallas regions, against its jnp reference.

  The three frames: the kernel's program at both instances by its generated frame; the reference by its generated
  run with the result dropped.  `preserves` is trivial: the idealization rewrote nothing.

  `algebraic`, at the exact instance.  The kernel program's run leaves in the result buffer the contents of the last
  segment boundary (the launch over the program's segments called once more with that buffer named, KernelRun.lean).
  Reading the boundaries backwards (KernelValue.lean) — each region's output array is its dense function of the
  region's input arrays at entry, index by index (Region0–3.lean, over the payloads of MlpPay.lean), and each host
  stretch is a neighbour sum or the mean pool of the previous region's output (HostK01/23.lean) — that content is
  `tailK (layerK (layerK (layerK features)))`.  The reference's run ends at `tailR (layerR (layerR (layerR features)))`
  (RefShape.lean).  A layer of one is a layer of the other (Bridge.lean): the dense parts agree index by index — a
  matmul into a zero accumulator and the host's dot_general are the same sum over the 64 hidden units, a bias row
  broadcast reads the same entry, relu is the maximum with the same zero (DenseBridge.lean) —, the scatter-adds are
  the same operation, and the gathers differ only in that the kernel's (`jnp.take`) replaces a row whose index is out
  of range by NaN where the reference's (`x[src]`) clamps the index: under the precondition `0 ≤ src < 50000` no row is
  replaced (PreRange.lean).  No law of the extended reals beyond reading sums at an index is needed, so the
  finiteness conjuncts of the precondition are not used.
-/
import proofs.«415730_j77171972374916_1_alg».proof.Defs
import proofs.«415730_j77171972374916_1_alg».proof.Proof.Gen.Kernel
import proofs.«415730_j77171972374916_1_alg».proof.Proof.Gen.Kernel.Frame
import proofs.«415730_j77171972374916_1_alg».proof.Proof.Gen.KernelIdeal
import proofs.«415730_j77171972374916_1_alg».proof.Proof.Gen.KernelIdeal.Frame
import proofs.«415730_j77171972374916_1_alg».proof.Proof.Gen.ReferenceIdeal
import proofs.«415730_j77171972374916_1_alg».proof.Proof.Gen.ReferenceIdeal.Run
import proofs.«415730_j77171972374916_1_alg».proof.Proof.Gen.ReferenceIdeal.Read
import proofs.«415730_j77171972374916_1_alg».proof.Proof.Gen.Pre_finite_inputs
import proofs.«415730_j77171972374916_1_alg».proof.Proof.KernelRun
import proofs.«415730_j77171972374916_1_alg».proof.Proof.KernelValue
import proofs.«415730_j77171972374916_1_alg».proof.Proof.RefShape
import proofs.«415730_j77171972374916_1_alg».proof.Proof.Bridge

noncomputable section

namespace Cert.Proof

open Idealize.ShloMosaic Idealize.SL.Sem Cert.Gin

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the head of three layers of the features; layer by layer and in the head they are the
    same function of the arguments once every source index is in range, which the precondition says. -/
theorem algebraic : Cert.algebraic_KernelIdeal_ReferenceIdeal := by
  intro m ρ m' ρ' hpre hagree
  refine ⟨fun c => K.tailK (m ((c.tc : Thread Cert.KernelIdeal.nD Cert.KernelIdeal.τ).loc Cert.KernelIdeal.main_arg2))
        (K.layerK (m ((c.tc : Thread Cert.KernelIdeal.nD Cert.KernelIdeal.τ).loc Cert.KernelIdeal.main_arg1))
          (K.layerK (m ((c.tc : Thread Cert.KernelIdeal.nD Cert.KernelIdeal.τ).loc Cert.KernelIdeal.main_arg1))
            (K.layerK (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
            (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)))
          (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)))
        (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono (fun r h c => ⟨(h c).1.trans (K.W12_v38 m ρ c), (h c).2⟩)
      (Cert.KernelIdeal.GinRun.run_v38 (F := Ideal) m ρ)
  · refine (θ_run Cert.ReferenceIdeal.defs _ _).mono (fun r h c => ⟨(h c).1.trans ?_, (h c).2⟩)
      (Cert.ReferenceIdeal.Value.run (F := Ideal) m' ρ')
    beta_reduce
    have hr := src_inRange m hpre c
    obtain ⟨a0, a1, a2, a3, a4, a5, a6, a7, a8, a9, a10, a11, a12, a13, a14, a15, a16⟩ := hagree c
    rw [res_eq m' c, a0, a1, a2, a3, a4, a5, a6, a7, a8, a9, a10, a11, a12, a13, a14, a15, a16,
      tailK_eq_tailR, layerK_eq_layerR _ hr, layerK_eq_layerR _ hr, layerK_eq_layerR _ hr]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
